-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_c)) (v2 : (c : Dev Cert.KernelIdeal.nD) → Buf (Elt Ideal) ((c.tc : Thread Cert.KernelIdeal.nD Cert.KernelIdeal.τ).loc Cert.KernelIdeal.main_c_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_c) = v1 c
          ∧ r.2.mem ((c.tc : Thread Cert.KernelIdeal.nD Cert.KernelIdeal.τ).loc Cert.KernelIdeal.main_c_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_c) = v1 c
          ∧ r.2.mem ((c.tc : Thread Cert.ReferenceIdeal.nD Cert.ReferenceIdeal.τ).loc Cert.ReferenceIdeal.main_c_7) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192 : Shape := ⟨1, ![8192]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : IVec S8192 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  main_v3
-- ==== Kernel.lean ====
abbrev S8192x512 : Shape := ⟨2, ![8192, 512]⟩
abbrev S8192 : Shape := ⟨1, ![8192]⟩
abbrev S8192x1 : Shape := ⟨2, ![8192, 1]⟩
abbrev S1x8192 : Shape := ⟨2, ![1, 8192]⟩
abbrev S1x1 : Shape := ⟨2, ![1, 1]⟩
abbrev S1024x512 : Shape := ⟨2, ![1024, 512]⟩
abbrev S1024x1 : Shape := ⟨2, ![1024, 1]⟩
abbrev S1x1024 : Shape := ⟨2, ![1, 1024]⟩
abbrev S1024x1024 : Shape := ⟨2, ![1024, 1024]⟩
abbrev S1x1024x1024 : Shape := ⟨3, ![1, 1024, 1024]⟩
abbrev S1 : Shape := ⟨1, ![1]⟩
abbrev S1x1x1 : Shape := ⟨3, ![1, 1, 1]⟩
abbrev S_ : Shape := ⟨0, ![]⟩

abbrev nBuf : Space → Nat
  | .hbm => 11
  | .vmem => 10
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S8192x512, .bf16⟩
  | .hbm, ⟨3, _⟩ => ⟨S8192x1, .i32⟩
  | .hbm, ⟨4, _⟩ => ⟨S1x8192, .i32⟩
  | .hbm, ⟨5, _⟩ => ⟨S1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .i32⟩
  | .hbm, ⟨10, _⟩ => ⟨S_, .i32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1, .i32⟩
  | .local _ .vmem, ⟨5, _⟩ => ⟨S1024x1, .i32⟩
  | .local _ .vmem, ⟨6, _⟩ => ⟨S1x1024, .i32⟩
  | .local _ .vmem, ⟨7, _⟩ => ⟨S1x1024, .i32⟩
  | .local _ .vmem, ⟨8, _⟩ => ⟨S1x1, .f32⟩
  | .local _ .vmem, ⟨9, _⟩ => ⟨S1x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_c : Ref sig .tc := ⟨.hbm, 9, rfl⟩
abbrev main_c_0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg0 : BitVec 32 := BitVec.ofNat 32 (i 0).val
  let c7_i32 : BitVec 32 := 7#32
  let v45 : BitVec 1 := Scalar.cmpi .eq arg0 c7_i32
  let arg1 : BitVec 32 := BitVec.ofNat 32 (i 1).val
  let c7_i32_21 : BitVec 32 := 7#32
  let v46 : BitVec 1 := Scalar.cmpi .eq arg1 c7_i32_21
  let v47 : BitVec 1 := Scalar.andi v45 v46
  let v48 : BitVec 32 := Scalar.extui v47
  let c0_i32_22 : BitVec 32 := 0#32
  let v49 : BitVec 1 := Scalar.cmpi .ne v48 c0_i32_22
  v49

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  bitsLt_bf16_f32 : FTy.bits .bf16 < FTy.bits .f32
  shapeCasts_S8192_S8192x1 : S8192.ShapeCasts S8192x1
  shapeCasts_S8192_S1x8192 : S8192.ShapeCasts S1x8192
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  shapeCasts_S1024x1024_S1x1024x1024 : S1024x1024.ShapeCasts S1x1024x1024
  reduces_S1x1024x1024_S1 : S1x1024x1024.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .bf16 = 32 ∨ (Rect.block (s := S8192x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .bf16 = 32 ∨ (Rect.block (s := S8192x512) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .i32 = 32 ∨ (Rect.block (s := S1x8192) S1x1024.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x512 : Shape := ⟨2, ![8192, 512]⟩
abbrev S8192 : Shape := ⟨1, ![8192]⟩
abbrev S512x8192 : Shape := ⟨2, ![512, 8192]⟩
abbrev S8192x8192 : Shape := ⟨2, ![8192, 8192]⟩
abbrev S8192x1 : Shape := ⟨2, ![8192, 1]⟩
abbrev S1x8192 : Shape := ⟨2, ![1, 8192]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S512x8192, .f32⟩
  | .hbm, ⟨3, _⟩ => ⟨S8192x8192, .f32⟩
  | .hbm, ⟨4, _⟩ => ⟨S8192x1, .i32⟩
  | .hbm, ⟨5, _⟩ => ⟨S1x8192, .i32⟩
  | .hbm, ⟨6, _⟩ => ⟨S8192x8192, .i32⟩
  | .hbm, ⟨7, _⟩ => ⟨S8192x8192, .i32⟩
  | .hbm, ⟨8, _⟩ => ⟨S8192x8192, .i1⟩
  | .hbm, ⟨9, _⟩ => ⟨S_, .f32⟩
  | .hbm, ⟨10, _⟩ => ⟨S8192x8192, .f32⟩
  | .hbm, ⟨11, _⟩ => ⟨S8192x8192, .i1⟩
  | .hbm, ⟨12, _⟩ => ⟨S8192x8192, .i1⟩
  | .hbm, ⟨13, _⟩ => ⟨S8192x8192, .i1⟩
  | .hbm, ⟨14, _⟩ => ⟨S_, .f32⟩
  | .hbm, ⟨15, _⟩ => ⟨S8192x8192, .f32⟩
  | .hbm, ⟨16, _⟩ => ⟨S8192x8192, .i1⟩
  | .hbm, ⟨17, _⟩ => ⟨S8192x8192, .i1⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S8192x8192, .f32⟩
  | .hbm, ⟨30, _⟩ => ⟨S8192x8192, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .i32⟩
  | .hbm, ⟨37, _⟩ => ⟨S_, .i32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_cst_4 : Ref sig .tc := ⟨.hbm, 27, rfl⟩
abbrev main_call1_v0 : Ref sig .tc := ⟨.hbm, 28, rfl⟩
abbrev main_call1_v1 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_cst_6 : Ref sig .tc := ⟨.hbm, 34, rfl⟩
abbrev main_v21 : Ref sig .tc := ⟨.hbm, 35, rfl⟩
abbrev main_c : Ref sig .tc := ⟨.hbm, 36, rfl⟩
abbrev main_c_7 : Ref sig .tc := ⟨.hbm, 37, rfl⟩

abbrev nD : Nat := 1
abbrev τ : Topo := Topo.v7x

variable {F : FTy → Type} [FloatOps F]

class Facts₀ : Prop where
  transposes_S8192x512_S512x8192_1_0 : S8192x512.Transposes [1, 0] S512x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  h_S_ : 0 < S_.numel
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.K.Kit.lean ====
/- The setting every later module of this program's frame works in: the buffers as the pallas_call finds them,
   each window's block at a grid point, the two branch conditions of the body in closed form over the 64 grid
   points (the first point resets the accumulator, the last point copies it out), where the output window is
   idle, and the running value of the one-cell accumulator as a recursion over the grid points. -/
import proofs.«174601_j55817394979140_1_alg».proof.Proof.Gen.Kernel.Launch
import proofs.«174601_j55817394979140_1_alg».proof.Proof.Gen.Kernel.Skeleton
import proofs.«174601_j55817394979140_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the pallas_call -/

/-- The core's buffers when the pallas_call is entered: after the cast of the embedding and the two reshapes of the labels. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: three host operations, the pallas_call, five host operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] hostOps0_sub
    hostOps0_fresh main_chain

/-- The three operations before the pallas_call write neither argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at grid point `t`, read off its array as the pallas_call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not (an unfetched
    window's block index has not moved since the last fetch). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two branches -/

/-- The first branch's condition (both grid coordinates zero): the accumulator is reset. -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at point 0 only. -/
theorem hcond0_0 : ∀ t : Fin cfg0.N, cond0_0 (grid0.coords t) ↔ t.val % 64 = 0 :=
  (by decide +kernel : ∀ t : Fin grid0.N, cond0_0 (grid0.coords t) ↔ t.val % 64 = 0)

/-- The second branch's condition (both grid coordinates seven): the accumulator is copied to the output block. -/
abbrev cond0_1 (i : grid0.Coords) : Prop := k0_cond2 i = 1#1
/-- It holds at point 63 only. -/
theorem hcond0_1 : ∀ t : Fin cfg0.N, cond0_1 (grid0.coords t) ↔ t.val % 64 = 63 :=
  (by decide +kernel : ∀ t : Fin grid0.N, cond0_1 (grid0.coords t) ↔ t.val % 64 = 63)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last point the body stores nothing into the output block, -/
theorem idleAt0_4 : ∀ t : Fin cfg0.N, ¬cond0_1 (grid0.coords t) → cfg0.idle 4 (grid0.coords t) = true := by decide +kernel
/-- and the block is not written back there. -/
theorem noFlush0_4 : ∀ t : Fin cfg0.N, ¬cond0_1 (grid0.coords t) → (cfg0.win 4).flush t = false := by decide +kernel
/-- At the last point the body stores into it. -/
theorem liveAt0_4 : ∀ t : Fin cfg0.N, cond0_1 (grid0.coords t) → cfg0.idle 4 (grid0.coords t) = false := by decide +kernel

/-! ## The memrefs the body is called with -/

abbrev ms0_0 (t : Fin cfg0.N) : Memref sig .tc .vmem S1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)
/-- The one-cell accumulator: a whole scoped buffer of the kernel's own. -/
abbrev scM0_0 : Memref sig .tc .vmem S1x1 .f32 := Memref.whole cc0_scratch0

/-- What the pallas_call hands the body beside the windows: the accumulator at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The accumulator, point by point -/

/-- One grid point's update of the accumulator: the tile's two masked sums added to what it held. -/
def tileAcc (x0 x1 : Vec F S1024x512 .bf16) (l2 : Vec F S1024x1 .i32) (l3 : Vec F S1x1024 .i32) (prev : Vec F S1x1 .f32) : Vec F S1x1 .f32 :=
  k0_pay1 (k0_pay5 x0 x1 l2 l3) (k0_pay6 x0 x1 l2 l3) prev

/-- The accumulator after grid point `n`: reset to zero at point 0, then one tile's sums added per point. -/
def accAt (c : Dev nD) : (n : ℕ) → n < cfg0.N → Vec F S1x1 .f32
  | 0, hn => tileAcc (iblk m c 0 ⟨0, hn⟩) (iblk m c 1 ⟨0, hn⟩) (iblk m c 2 ⟨0, hn⟩) (iblk m c 3 ⟨0, hn⟩) (k0_pay2 (F := F))
  | n + 1, hn => tileAcc (iblk m c 0 ⟨n + 1, hn⟩) (iblk m c 1 ⟨n + 1, hn⟩) (iblk m c 2 ⟨n + 1, hn⟩) (iblk m c 3 ⟨n + 1, hn⟩) (accAt c n (Nat.lt_of_succ_lt hn))

theorem accAt_zero (c : Dev nD) (t : Fin cfg0.N) (h0 : t.val = 0) :
    accAt m c t.val t.isLt = tileAcc (iblk m c 0 t) (iblk m c 1 t) (iblk m c 2 t) (iblk m c 3 t) (k0_pay2 (F := F)) := by
  obtain ⟨n, hn⟩ := t
  cases n with
  | zero => rfl
  | succ n => exact absurd h0 (Nat.succ_ne_zero n)

theorem accAt_pos (c : Dev nD) (t : Fin cfg0.N) (h0 : t.val ≠ 0) :
    accAt m c t.val t.isLt = tileAcc (iblk m c 0 t) (iblk m c 1 t) (iblk m c 2 t) (iblk m c 3 t) (accAt m c (t.val - 1) (Nat.lt_of_le_of_lt (Nat.sub_le _ _) t.isLt)) := by
  obtain ⟨n, hn⟩ := t
  cases n with
  | zero => exact absurd rfl h0
  | succ n => rfl

end Cert.Kernel.Hand

end
-- ==== Proof.K.Data.lean ====
/- The proof data of the pallas_call's pipeline on one core: what each array holds on entry, what each window's
   staging buffer holds after the body at each grid point (an input window its block; the output window the
   accumulator, which the body copies there at the last point), the invariant between points (the accumulator at
   its running value), and the shares: the embedding array is read through two windows, which hold one half of it each. -/
import proofs.«174601_j55817394979140_1_alg».proof.Proof.K.Kit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant between grid points -/

/-- Before point 0 the accumulator holds anything; after point `n` it holds the running value. -/
def PhiS (c : Dev nD) : (n : ℕ) → n ≤ cfg0.N → sProp 𝕄
  | 0, _ => Pipeline.ΦA spec0 c
  | n + 1, hn => iprop(iprop(owns (c : Thread nD τ) scM0_0 fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM0_0 fullShare (accAt m c (n - 1) (by omega))) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => accAt m c t.val t.isLt
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = accAt m c t.val t.isLt := by dsimp only [dats]

theorem q0_0 (c : Dev nD) : (dats m 0 c).q 0 = fullShare.left := by dsimp only [dats]
theorem q0_1 (c : Dev nD) : (dats m 0 c).q 1 = fullShare.right := by dsimp only [dats]
theorem q0_2 (c : Dev nD) : (dats m 0 c).q 2 = fullShare := by dsimp only [dats]
theorem q0_3 (c : Dev nD) : (dats m 0 c).q 3 = fullShare := by dsimp only [dats]

/-- Each input window's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation's two sides at a grid point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-- What the pallas_call hands the body is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives that back: the accumulator's value is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

/-! ## The buffers when the pallas_call returns, and when the program ends -/

/-- The core's buffers when the pallas_call returns: the output array at what the write-backs left, every other
    buffer as the pallas_call found it. -/
def Wexit (c : Dev nD) : Valuation τ sig (Elt F) :=
  Function.update (V0 m c) (Proc.devRef .tc main_v3) ((dats m 0 c).arrAt 4 cfg0.N)

/-- The core's buffers when the program ends: after the five host operations that follow the pallas_call. -/
def Wfin (c : Dev nD) : Valuation τ sig (Elt F) := StableHlo.after hostOps1 (Wexit m c)

end Cert.Kernel.Hand

end
-- ==== Proof.K.RunA.lean ====
/- The body of the kernel at the first grid point, on any whole buffers: it resets the one-cell accumulator to zero and adds
   the tile's two masked sums to it; the four input blocks and the output block keep what they held. With it, the two facts
   every case uses to read the accumulator back: the zero offsets of a whole rectangle, and that a list of stores ending in a
   store through the whole cell covers the cell. -/
import proofs.«174601_j55817394979140_1_alg».proof.Proof.K.Data
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The zero offsets of a whole-buffer rectangle of rank two. -/
theorem hz : (![0, 0] : Fin 2 → Nat) = fun _ => 0 := funext fun a => by fin_cases a <;> rfl

/-- A list of stores into the one-cell buffer whose last store is through the whole cell covers the cell. -/
theorem cover_cons (w : Vec F S1x1 .f32) (L : List (View.Piece (Elt F) S1x1 .f32)) (y : S1x1.Idx) :
    ∃ p ∈ ((⟨Rect.unit (s := S1x1) ![0, 0] S1x1.size inb_S1x1_S1x1_0_0, w⟩ : View.Piece (Elt F) S1x1 .f32) :: L), y ∈ p.1.set :=
  ⟨_, List.mem_cons_self, View.mem_set_unit_zero hz inb_S1x1_S1x1_0_0 y⟩

set_option maxHeartbeats 1000000 in
/-- At a point where the first condition holds and the second fails, from the input blocks `x0 x1 l2 l3`, the output block at `xi4`
    and the accumulator at anything, the body leaves the accumulator at the tile's update of zero, `tileAcc x0 x1 l2 l3 k0_pay2`,
    and everything else as it was: the reset stores `k0_pay2`, the later load reads that back, and the last store through the
    whole cell is what the cell holds. -/
theorem run_A (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i)
    (x0 x1 : Vec F S1024x512 .bf16) (l2 : Vec F S1024x1 .i32) (l3 : Vec F S1x1024 .i32) (xi4 : Vec F S1x1 .f32)
    (E : Set ℕ) (K : PUnit → sProp 𝕄) :
    iprop(owns (c : Thread nD τ) arg2 fullShare x0 ∗ owns (c : Thread nD τ) arg3 fullShare x1
        ∗ owns (c : Thread nD τ) arg4 fullShare l2 ∗ owns (c : Thread nD τ) arg5 fullShare l3
        ∗ owns (c : Thread nD τ) arg6 fullShare xi4 ∗ (∃ d, owns (c : Thread nD τ) arg7 fullShare d)
        ∗ (iprop(owns (c : Thread nD τ) arg2 fullShare x0 ∗ owns (c : Thread nD τ) arg3 fullShare x1
            ∗ owns (c : Thread nD τ) arg4 fullShare l2 ∗ owns (c : Thread nD τ) arg5 fullShare l3
            ∗ owns (c : Thread nD τ) arg6 fullShare xi4
            ∗ owns (c : Thread nD τ) arg7 fullShare (tileAcc x0 x1 l2 l3 (k0_pay2 (F := F)))) -∗ K ⟨⟩))
      ⊢ wp frame (wpE (defs₀ (F := F)) Variants.none c none) E (cc0__contrastive_kernel i arg2 harg2 arg3 harg3 arg4 harg4 arg5 harg5 arg6 harg6 arg7 harg7) K := by
  simp only [cc0__contrastive_kernel_eq_skeleton]; unfold cc0__contrastive_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  obtain rfl := harg2.eq_unread hf0; obtain rfl := harg3.eq_unread hf1
  obtain rfl := harg4.eq_unread hf2; obtain rfl := harg5.eq_unread hf3
  obtain rfl := harg6.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact HS
  ipureintro
  sl_unfold_words
  rw [View.read_writes_eq_canon _ _ _ (cover_cons _ _), View.canon_cons_unit_zero (S := S1x1) hz]
  unfold tileAcc
  simp only [View.readAt_eq_ld, harg2.read_unread, harg3.read_unread, harg4.read_unread, harg5.read_unread, harg7.read_unread,
    View.ld_unit_zero (S := S1024x512) hz, View.ld_unit_zero (S := S1024x1) hz, View.ld_unit_zero (S := S1x1024) hz, View.ld_unit_zero (S := S1x1) hz,
    View.readCov_unit_zero (S := S1x1) _ hz]

end Cert.Kernel.Hand

end
-- ==== Proof.K.RunB.lean ====
/- The body of the kernel at a middle grid point, on any whole buffers: no reset and no copy to the output block; the
   accumulator goes from what the point before left to that plus the tile's two masked sums. -/
import proofs.«174601_j55817394979140_1_alg».proof.Proof.K.RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At a point where both conditions fail, from the input blocks `x0 x1 l2 l3`, the output block at `xi4` and the accumulator at
    `prev`, the body leaves the accumulator at `tileAcc x0 x1 l2 l3 prev` and everything else as it was: its one store is through
    the whole cell, of the payload of what the loads read. -/
theorem run_B (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i)
    (x0 x1 : Vec F S1024x512 .bf16) (l2 : Vec F S1024x1 .i32) (l3 : Vec F S1x1024 .i32) (xi4 prev : Vec F S1x1 .f32)
    (E : Set ℕ) (K : PUnit → sProp 𝕄) :
    iprop(owns (c : Thread nD τ) arg2 fullShare x0 ∗ owns (c : Thread nD τ) arg3 fullShare x1
        ∗ owns (c : Thread nD τ) arg4 fullShare l2 ∗ owns (c : Thread nD τ) arg5 fullShare l3
        ∗ owns (c : Thread nD τ) arg6 fullShare xi4 ∗ owns (c : Thread nD τ) arg7 fullShare prev
        ∗ (iprop(owns (c : Thread nD τ) arg2 fullShare x0 ∗ owns (c : Thread nD τ) arg3 fullShare x1
            ∗ owns (c : Thread nD τ) arg4 fullShare l2 ∗ owns (c : Thread nD τ) arg5 fullShare l3
            ∗ owns (c : Thread nD τ) arg6 fullShare xi4
            ∗ owns (c : Thread nD τ) arg7 fullShare (tileAcc x0 x1 l2 l3 prev)) -∗ K ⟨⟩))
      ⊢ wp frame (wpE (defs₀ (F := F)) Variants.none c none) E (cc0__contrastive_kernel i arg2 harg2 arg3 harg3 arg4 harg4 arg5 harg5 arg6 harg6 arg7 harg7) K := by
  simp only [cc0__contrastive_kernel_eq_skeleton]; unfold cc0__contrastive_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg2.eq_unread hf0; obtain rfl := harg3.eq_unread hf1
  obtain rfl := harg4.eq_unread hf2; obtain rfl := harg5.eq_unread hf3
  obtain rfl := harg6.eq_unread hf4; obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact HS
  ipureintro
  sl_unfold_words
  rw [View.read_writes_eq_canon _ _ _ (cover_cons _ _), View.canon_cons_unit_zero (S := S1x1) hz]
  unfold tileAcc
  simp only [View.readAt_eq_ld, harg2.read_unread, harg3.read_unread, harg4.read_unread, harg5.read_unread, harg7.read_unread,
    View.ld_unit_zero (S := S1024x512) hz, View.ld_unit_zero (S := S1024x1) hz, View.ld_unit_zero (S := S1x1024) hz, View.ld_unit_zero (S := S1x1) hz,
    View.readCov_unit_zero (S := S1x1) _ hz]

end Cert.Kernel.Hand

end
-- ==== Proof.K.RunC.lean ====
/- The body of the kernel at the last grid point, on any whole buffers: the accumulator is updated as at a middle point, and
   its new value is then copied into the output block. -/
import proofs.«174601_j55817394979140_1_alg».proof.Proof.K.RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At a point where the first condition fails and the second holds, from the input blocks `x0 x1 l2 l3`, the output block at
    anything and the accumulator at `prev`, the body leaves both the accumulator and the output block at
    `tileAcc x0 x1 l2 l3 prev`, and the input blocks as they were: the load after the update reads the update back, and that is
    what the store through the whole output cell leaves. -/
theorem run_C (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 x1 : Vec F S1024x512 .bf16) (l2 : Vec F S1024x1 .i32) (l3 : Vec F S1x1024 .i32) (prev : Vec F S1x1 .f32)
    (E : Set ℕ) (K : PUnit → sProp 𝕄) :
    iprop(owns (c : Thread nD τ) arg2 fullShare x0 ∗ owns (c : Thread nD τ) arg3 fullShare x1
        ∗ owns (c : Thread nD τ) arg4 fullShare l2 ∗ owns (c : Thread nD τ) arg5 fullShare l3
        ∗ (∃ d, owns (c : Thread nD τ) arg6 fullShare d) ∗ owns (c : Thread nD τ) arg7 fullShare prev
        ∗ (iprop(owns (c : Thread nD τ) arg2 fullShare x0 ∗ owns (c : Thread nD τ) arg3 fullShare x1
            ∗ owns (c : Thread nD τ) arg4 fullShare l2 ∗ owns (c : Thread nD τ) arg5 fullShare l3
            ∗ owns (c : Thread nD τ) arg6 fullShare (tileAcc x0 x1 l2 l3 prev)
            ∗ owns (c : Thread nD τ) arg7 fullShare (tileAcc x0 x1 l2 l3 prev)) -∗ K ⟨⟩))
      ⊢ wp frame (wpE (defs₀ (F := F)) Variants.none c none) E (cc0__contrastive_kernel i arg2 harg2 arg3 harg3 arg4 harg4 arg5 harg5 arg6 harg6 arg7 harg7) K := by
  simp only [cc0__contrastive_kernel_eq_skeleton]; unfold cc0__contrastive_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg2.eq_unread hf0; obtain rfl := harg3.eq_unread hf1
  obtain rfl := harg4.eq_unread hf2; obtain rfl := harg5.eq_unread hf3
  obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_words
    rw [View.read_writes_eq_canon _ _ _ (cover_cons _ _), View.canon_cons_unit_zero (S := S1x1) hz]
    unfold tileAcc
    simp only [View.readAt_eq_ld, harg2.read_unread, harg3.read_unread, harg4.read_unread, harg5.read_unread, harg7.read_unread,
      View.ld_unit_zero (S := S1024x512) hz, View.ld_unit_zero (S := S1024x1) hz, View.ld_unit_zero (S := S1x1024) hz, View.ld_unit_zero (S := S1x1) hz,
      View.readCov_unit_zero (S := S1x1) _ hz]
  iexists _; isplitr
  swap; · iexact HS
  ipureintro
  sl_unfold_words
  rw [View.read_writes_eq_canon _ _ _ (cover_cons _ _), View.canon_cons_unit_zero (S := S1x1) hz]
  unfold tileAcc
  simp only [View.readAt_eq_ld, harg2.read_unread, harg3.read_unread, harg4.read_unread, harg5.read_unread, harg7.read_unread,
    View.ld_unit_zero (S := S1024x512) hz, View.ld_unit_zero (S := S1024x1) hz, View.ld_unit_zero (S := S1x1024) hz, View.ld_unit_zero (S := S1x1) hz,
    View.readCov_unit_zero (S := S1x1) _ hz]

end Cert.Kernel.Hand

end
-- ==== Proof.K.Body.lean ====
/- The body of the kernel at every grid point: from the accumulator at its running value and the four input
   blocks, it leaves the accumulator one tile further, the input blocks in place, and at the last point the
   output block at the accumulator's value. -/
import proofs.«174601_j55817394979140_1_alg».proof.Proof.K.RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4800000 in
/-- By cases on the point. At the first point the invariant hands the accumulator at anything and takes it back at the
    tile's update of zero; at every later point it hands it at the running value of the point before and takes it back one tile
    further; the input blocks are handed and returned in place; the output block is handed back untouched where it is idle, and
    at the last point returned at the accumulator's value. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases h0 : t.val % 64 = 0
  · -- the first point: the accumulator is reset, the output block is idle
    have hc0 : cond0_0 (grid0.coords t) := (hcond0_0 t).mpr h0
    have hc1 : ¬cond0_1 (grid0.coords t) := fun h => by have := (hcond0_1 t).mp h; omega
    have hz0 : t.val = 0 := by omega
    rw [Dat.leavesExact_idle (dats m 0 c) 4 t (idleAt0_4 t hc1) (noFlush0_4 t hc1)]
    rw [accAt_zero m c t hz0]
    rw [PhiS_castSucc m c t, PhiS_zero m c _ _ hz0, PhiA0_eq]
    iintro ⟨⟨HS0, Hg⟩, Ho, ⟨%d0, H0⟩, ⟨%d1, H1⟩, ⟨%d2, H2⟩, ⟨%d3, H3⟩, ⟨%d4, H4⟩⟩
    iapply (run_A c (grid0.coords t) _ _ _ _ _ _ _ _ _ _ _ _ hc0 hc1 (iblk m c 0 t) (iblk m c 1 t) (iblk m c 2 t) (iblk m c 3 t) ((dats m 0 c).before 4 t d4) Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    iexists _; iexact H4
  · have hc0 : ¬cond0_0 (grid0.coords t) := fun h => h0 ((hcond0_0 t).mp h)
    have hz0 : t.val ≠ 0 := fun h => h0 (by rw [h])
    rw [accAt_pos m c t hz0]
    rw [PhiS_castSucc m c t, PhiS_pos m c _ _ hz0]
    by_cases h1 : t.val % 64 = 63
    · -- the last point: the accumulator is updated and copied to the output block
      have hc1 : cond0_1 (grid0.coords t) := (hcond0_1 t).mpr h1
      rw [show (dats m 0 c).leavesExact 4 t = owns (c : Thread nD τ) (ms0_4 t) fullShare ((dats m 0 c).after 4 t) from by
        unfold Dat.leavesExact; rw [liveAt0_4 t hc1], after0_4, accAt_pos m c t hz0]
      iintro ⟨⟨HS0, Hg⟩, Ho, ⟨%d0, H0⟩, ⟨%d1, H1⟩, ⟨%d2, H2⟩, ⟨%d3, H3⟩, ⟨%d4, H4⟩⟩
      iapply (run_C c (grid0.coords t) _ _ _ _ _ _ _ _ _ _ _ _ hc0 hc1 (iblk m c 0 t) (iblk m c 1 t) (iblk m c 2 t) (iblk m c 3 t) (accAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, H4, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      iexact H4
    · -- a middle point: the accumulator is updated, the output block is idle
      have hc1 : ¬cond0_1 (grid0.coords t) := fun h => h1 ((hcond0_1 t).mp h)
      rw [Dat.leavesExact_idle (dats m 0 c) 4 t (idleAt0_4 t hc1) (noFlush0_4 t hc1)]
      iintro ⟨⟨HS0, Hg⟩, Ho, ⟨%d0, H0⟩, ⟨%d1, H1⟩, ⟨%d2, H2⟩, ⟨%d3, H3⟩, ⟨%d4, H4⟩⟩
      iapply (run_B c (grid0.coords t) _ _ _ _ _ _ _ _ _ _ _ _ hc0 hc1 (iblk m c 0 t) (iblk m c 1 t) (iblk m c 2 t) (iblk m c 3 t) ((dats m 0 c).before 4 t d4) (accAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.Launch.lean ====
/- The whole program run: the host operations before the pallas_call, the pipeline over the 64 grid points, the
   host operations after it. Every weakly fair execution ends, nothing faults, the two arguments end as they
   were, and the three results end at what the five closing host operations compute from the output array. -/
import proofs.«174601_j55817394979140_1_alg».proof.Proof.K.Body

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The shares the five windows hold their arrays at -/

theorem share0_0 (c : Dev nD) : (dats m 0 c).share 0 = fullShare.left := by unfold Dat.share; exact q0_0 m c
theorem share0_1 (c : Dev nD) : (dats m 0 c).share 1 = fullShare.right := by unfold Dat.share; exact q0_1 m c
theorem share0_2 (c : Dev nD) : (dats m 0 c).share 2 = fullShare := by unfold Dat.share; exact q0_2 m c
theorem share0_3 (c : Dev nD) : (dats m 0 c).share 3 = fullShare := by unfold Dat.share; exact q0_3 m c
theorem share0_4 (c : Dev nD) : (dats m 0 c).share 4 = fullShare := by unfold Dat.share; rfl

/-- The five windows' arrays as the proof data holds them (the embedding array one half per window) are the four
    buffers behind them, each whole at the full share, whenever the two windows on the embedding array hold the
    same contents. -/
theorem arrays_iff (c : Dev nD) (G : (w : Fin cfg0.W) → Buf (Elt F) ((cfg0.win w).arr.view.loc (c.tc : Thread nD τ)))
    (X : (b : Ref sig .tc) → Buf (Elt F) ((c.tc : Thread nD τ).loc b)) (hG : ∀ w, G w = X (Pipeline.arrRef spec0 w)) :
    ((dats m 0 c).arrays G : sProp 𝕄) ⊣⊢ Pipeline.arrBufs (Ix := Unit) (Name := ℕ) (U := UR sig nD τ) (Lvl := ℕ) spec0 c X := by
  classical
  unfold Pipeline.arrBufs Dat.arrays
  rw [bigSep_eq_bigSepL_of_eq [main_v0, main_v1, main_v2, main_v3] (by decide) (by decide), bigSep_W0]
  simp only [View.set_whole]
  rw [share0_0, share0_1, share0_2, share0_3, share0_4, hG 0, hG 1, hG 2, hG 3, hG 4]
  refine (show (_ : sProp 𝕄) ⊣⊢ iprop(((c.tc : Thread nD τ).loc main_v0 ↦{fullShare} X main_v0) ∗ ((c.tc : Thread nD τ).loc main_v1 ↦{fullShare} X main_v1)
      ∗ ((c.tc : Thread nD τ).loc main_v2 ↦{fullShare} X main_v2) ∗ ((c.tc : Thread nD τ).loc main_v3 ↦{fullShare} X main_v3)) from ⟨?_, ?_⟩)
  · iintro ⟨Hl, Hr, H1, H2, H3⟩
    isplitl [Hl Hr]
    · iapply (pointsTo_share (PosShare.mem_left_op_right fullShare)).2
      isplitl [Hl]; · iexact Hl
      iexact Hr
    isplitl [H1]; · iexact H1
    isplitl [H2]; · iexact H2
    iexact H3
  · iintro ⟨H0, H1, H2, H3⟩
    ihave H0' := (pointsTo_share (PosShare.mem_left_op_right fullShare)).1 $$ H0
    icases H0' with ⟨Hl, Hr⟩
    isplitl [Hl]; · iexact Hl
    isplitl [Hr]; · iexact Hr
    isplitl [H1]; · iexact H1
    isplitl [H2]; · iexact H2
    iexact H3

/-- On entry: the buffers behind the arrays, as the pallas_call finds them, are the proof data's arrays. -/
theorem hsplit (c : Dev nD) :
    (Pipeline.arrBufs (Ix := Unit) (Name := ℕ) (U := UR sig nD τ) (Lvl := ℕ) spec0 c (V m c) : sProp 𝕄) ⊢ (dats m 0 c).arrays ((dats m 0 c).arrAt · 0) :=
  (arrays_iff m c _ (V m c) fun w => A_eq m c w).2

/-! ## The buffers around the five closing host operations -/

/-- An input window's array is never written back: it holds what the pallas_call found. -/
theorem arrAt_0 (c : Dev nD) (n : ℕ) : (dats m 0 c).arrAt 0 n = V m c main_v0 := (Pipeline.Dat.arrAt_in (dats m 0 c) 0 rfl n).trans (A_eq m c 0)
theorem arrAt_1 (c : Dev nD) (n : ℕ) : (dats m 0 c).arrAt 1 n = V m c main_v0 := (Pipeline.Dat.arrAt_in (dats m 0 c) 1 rfl n).trans (A_eq m c 1)
theorem arrAt_2 (c : Dev nD) (n : ℕ) : (dats m 0 c).arrAt 2 n = V m c main_v1 := (Pipeline.Dat.arrAt_in (dats m 0 c) 2 rfl n).trans (A_eq m c 2)
theorem arrAt_3 (c : Dev nD) (n : ℕ) : (dats m 0 c).arrAt 3 n = V m c main_v2 := (Pipeline.Dat.arrAt_in (dats m 0 c) 3 rfl n).trans (A_eq m c 3)

theorem Wexit_v3 (c : Dev nD) : Wexit m c (Proc.devRef .tc main_v3) = (dats m 0 c).arrAt 4 cfg0.N := by
  unfold Wexit; exact Function.update_self _ _ _
theorem Wexit_ne (c : Dev nD) (b : Ref sig .tc) (hb : b ≠ main_v3) : Wexit m c (Proc.devRef .tc b) = V m c b := by
  unfold Wexit; exact Function.update_of_ne (StableHlo.devRef_ne_of_ne hb) _ _

/-- The five closing operations write the scalar copy of the output, the divisor, the quotient and the two integer constants. -/
theorem hostOps1_writes : (hostOps1 : List (HloOp τ sig (Elt F))).Forall fun op =>
    op.writes ⊆ (([main_v4, main_cst, main_v5, main_c, main_c_0] : List (Ref sig .tc)).map (Proc.devRef (τ := τ) .tc)).toFinset := by
  simp only [hostOps1, List.Forall, StableHlo.nullary_writes, StableHlo.binary_writes, StableHlo.reshape_writes,
    Finset.singleton_subset_iff, List.mem_toFinset, List.mem_map]
  exact ⟨⟨main_v4, by decide, rfl⟩, ⟨main_cst, by decide, rfl⟩, ⟨main_v5, by decide, rfl⟩, ⟨main_c, by decide, rfl⟩, ⟨main_c_0, by decide, rfl⟩⟩

/-- Every other buffer is, at the end, as the pallas_call left it. -/
theorem Wfin_keep (c : Dev nD) (b : Ref sig .tc) (hb : b ∉ ([main_v4, main_cst, main_v5, main_c, main_c_0] : List (Ref sig .tc))) :
    Wfin m c (Proc.devRef .tc b) = Wexit m c (Proc.devRef .tc b) := by
  unfold Wfin; exact StableHlo.after_of_writes_sub hostOps1 _ hostOps1_writes hb

/-- The arrays when the pallas_call returns, read off the buffers then, -/
theorem arrAt_exit (c : Dev nD) : ∀ w, (dats m 0 c).arrAt w cfg0.N = Wexit m c (Proc.devRef .tc (Pipeline.arrRef spec0 w))
  | 0 => (arrAt_0 m c _).trans (Wexit_ne m c main_v0 (by decide)).symm
  | 1 => (arrAt_1 m c _).trans (Wexit_ne m c main_v0 (by decide)).symm
  | 2 => (arrAt_2 m c _).trans (Wexit_ne m c main_v1 (by decide)).symm
  | 3 => (arrAt_3 m c _).trans (Wexit_ne m c main_v2 (by decide)).symm
  | 4 => (Wexit_v3 m c).symm
  | ⟨_ + 5, h⟩ => absurd h (Nat.not_lt.2 (Nat.le_add_left _ _))
/-- and off the buffers when the program ends: the closing operations write none of them. -/
theorem arrAt_fin (c : Dev nD) (w : Fin cfg0.W) : (dats m 0 c).arrAt w cfg0.N = Wfin m c (Proc.devRef .tc (Pipeline.arrRef spec0 w)) :=
  (arrAt_exit m c w).trans (Wfin_keep m c _ (by revert w; decide)).symm

/-! ## The five closing host operations -/

theorem sfx_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- The buffers no window reads or writes, when the pallas_call is entered, -/
abbrev Zent (c : Dev nD) : sProp 𝕄 := Pipeline.unscopedRest (Ix := Unit) (Name := ℕ) (U := UR sig nD τ) (Lvl := ℕ) spec0 c (V m c)
/-- and when the program ends. -/
abbrev Zfin (c : Dev nD) : sProp 𝕄 := Pipeline.unscopedRest (Ix := Unit) (Name := ℕ) (U := UR sig nD τ) (Lvl := ℕ) spec0 c (fun b => Wfin m c (Proc.devRef .tc b))

/-- Every unscoped buffer held whole at a valuation is the windows' arrays and the rest, the arrays being at that valuation. -/
theorem held_iff (c : Dev nD) (Wv : Valuation τ sig (Elt F)) (hW : ∀ w, (dats m 0 c).arrAt w cfg0.N = Wv (Proc.devRef .tc (Pipeline.arrRef spec0 w))) :
    (StableHlo.held (c.tc : Thread nD τ) (Pipeline.ucRefs τ sig) Wv : sProp 𝕄)
      ⊣⊢ iprop((dats m 0 c).arrays ((dats m 0 c).arrAt · cfg0.N)
          ∗ Pipeline.unscopedRest (Ix := Unit) (Name := ℕ) (U := UR sig nD τ) (Lvl := ℕ) spec0 c (fun b => Wv (Proc.devRef .tc b))) := by
  rw [← Pipeline.unscopedBufs_held (Ix := Unit) (Name := ℕ) (U := UR sig nD τ) (Lvl := ℕ) c Wv,
    Pipeline.unscopedBufs_split₀ cfgs 0 winFacts₀0.arr_unscoped c]
  have h := arrays_iff m c ((dats m 0 c).arrAt · cfg0.N) (fun b => Wv (Proc.devRef .tc b)) hW
  constructor
  · iintro ⟨Ha, Hz⟩
    isplitl [Ha]
    · iapply h.2; iexact Ha
    iexact Hz
  · iintro ⟨Ha, Hz⟩
    isplitl [Ha]
    · iapply h.1; iexact Ha
    iexact Hz

theorem Zent_eq (c : Dev nD) : (Zent m c : sProp 𝕄)
    = Pipeline.unscopedRest (Ix := Unit) (Name := ℕ) (U := UR sig nD τ) (Lvl := ℕ) spec0 c (fun b => Wexit m c (Proc.devRef .tc b)) := by
  classical
  unfold Zent Pipeline.unscopedRest
  exact bigSep_congr fun b hb => by
    beta_reduce
    rw [Wexit_ne m c b fun e => (Finset.mem_sdiff.mp hb).2 (Finset.mem_image.mpr ⟨4, Finset.mem_univ _, e.symm⟩)]

set_option backward.isDefEq.respectTransparency.types false in
/-- From the pallas_call's exit the five operations run, touching unscoped buffers only, and hand back the arrays as
    they were and every other buffer at its final contents. -/
theorem htail (c : Dev nD) (Q' : PUnit → sProp 𝕄) :
    iprop((iprop((dats m 0 c).arrays ((dats m 0 c).arrAt · cfg0.N) ∗ Zfin m c) -∗ Q' ⟨⟩)
        ∗ boundary (c.tc : Thread nD τ) ∗ (dats m 0 c).arrays ((dats m 0 c).arrAt · cfg0.N) ∗ Zent m c)
      ⊢ wp frame (wpE (Pipeline.defs (pcfgs (F := F)) defs₀) (Variants.lift Variants.none) (c.tc : Thread nD τ) none) Set.univ
          (Pipeline.chain [StableHlo.seq hostOps1]) Q' := by
  have hfl : ([hostOps1] : List (List (HloOp τ sig (Elt F)))).flatten = hostOps1 := by
    simp only [List.flatten_cons, List.flatten_nil, List.append_nil]
  rw [Zent_eq]
  show _ ⊢ wp frame _ Set.univ (Pipeline.chain (([hostOps1] : List (List (HloOp τ sig (Elt F)))).map StableHlo.seq ++ [])) Q'
  iintro ⟨Hk, Hb, Ha, Hz⟩
  ihave Hh := (held_iff m c (Wexit m c) (arrAt_exit m c)).2 $$ [Ha Hz]
  · isplitl [Ha] <;> iassumption
  iapply (Pipeline.wp_seqs_then pcfgs defs₀ Variants.none c (Pipeline.ucRefs τ sig) [] [hostOps1] sfx_sub sfx_fresh (Wexit m c)) $$ [Hb Hh]
  · isplitl [Hb] <;> iassumption
  iintro Hb
  rw [Pipeline.chain_nil, wp_pure, hfl]
  imodintro
  iapply Hk
  icases Hb with ⟨-, H⟩
  iapply (held_iff m c (Wfin m c) (arrAt_fin m c)).1
  iexact H

/-! ## What the final memory holds -/

theorem Wfin_arg0 (c : Dev nD) : Wfin m c (Proc.devRef .tc main_arg0) = m ((c.tc : Thread nD τ).loc main_arg0) :=
  (Wfin_keep m c main_arg0 (by decide)).trans ((Wexit_ne m c main_arg0 (by decide)).trans (V_main_arg0 m c))
theorem Wfin_arg1 (c : Dev nD) : Wfin m c (Proc.devRef .tc main_arg1) = m ((c.tc : Thread nD τ).loc main_arg1) :=
  (Wfin_keep m c main_arg1 (by decide)).trans ((Wexit_ne m c main_arg1 (by decide)).trans (V_main_arg1 m c))

/-- Every buffer no window reads or writes ends at its final contents. -/
abbrev QY (c : Dev nD) (s : MemSt nD τ sig (Elt F)) : Prop :=
  ∀ b ∈ Pipeline.restRefs sig spec0, s.mem ((c.tc : Thread nD τ).loc b) = Wfin m c (Proc.devRef .tc b)

theorem hY (c : Dev nD) (s' : Phys nD τ sig (Elt F)) :
    iprop(iprop(∃ r, prngReg c r) ∗ Zfin m c ∗ SI s') ⊢ |={Set.univ}=> iprop(⌜QY m c s'.mem⌝ ∗ (SI s' : sProp 𝕄)) := by
  iintro ⟨-, HU, HSI⟩
  unfold Zfin Pipeline.unscopedRest
  imodintro
  iapply (pointsTo_read_all (Pipeline.restRefs sig spec0) (fun b => (c.tc : Thread nD τ).loc b) (fun b => Wfin m c (Proc.devRef .tc b)) s')
  isplitl [HU] <;> iassumption

theorem hQ (s : MemSt nD τ sig (Elt F)) (c : Dev nD) (h : QY m c s) :
      s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_v5) = Wfin m c (Proc.devRef .tc main_v5)
      ∧ s.mem ((c.tc : Thread nD τ).loc main_c) = Wfin m c (Proc.devRef .tc main_c)
      ∧ s.mem ((c.tc : Thread nD τ).loc main_c_0) = Wfin m c (Proc.devRef .tc main_c_0) :=
  ⟨(h main_arg0 (Pipeline.mem_restRefs_of _ (by decide) (by decide))).trans (Wfin_arg0 m c),
   (h main_arg1 (Pipeline.mem_restRefs_of _ (by decide) (by decide))).trans (Wfin_arg1 m c),
   h main_v5 (Pipeline.mem_restRefs_of _ (by decide) (by decide)),
   h main_c (Pipeline.mem_restRefs_of _ (by decide) (by decide)),
   h main_c_0 (Pipeline.mem_restRefs_of _ (by decide) (by decide))⟩

/-! ## The run -/

set_option backward.isDefEq.respectTransparency.types false in
theorem run_main : θ_run defs (onTc (τ := τ) (main (F := F))) (s₀ m ρ) (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v5) = Wfin m c (Proc.devRef .tc main_v5)
      ∧ r.2.mem ((c.tc : Thread nD τ).loc main_c) = Wfin m c (Proc.devRef .tc main_c)
      ∧ r.2.mem ((c.tc : Thread nD τ).loc main_c_0) = Wfin m c (Proc.devRef .tc main_c_0)) := by
  classical
  exact Pipeline.θ_run_region_pf_tail (fun q => (cfgs q).toPCfg (Val := Elt F)) (fun q => (cfgs q).toPCfg_adm) (dats m) () cellOf_inj 0
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := Zent m) (Z' := Zfin m)
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c from by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := htail m)
    (QY := QY m)
    (hY := hY m)
    (hQ := fun s h c => hQ m s c (h c).2.2)

end Cert.Kernel.Hand

end
-- ==== Proof.KI.Kit.lean ====
/- The setting every later module of this program's frame works in: the buffers as the pallas_call finds them,
   each window's block at a grid point, the two branch conditions of the body in closed form over the 64 grid
   points (the first point resets the accumulator, the last point copies it out), where the output window is
   idle, and the running value of the one-cell accumulator as a recursion over the grid points. -/
import proofs.«174601_j55817394979140_1_alg».proof.Proof.Gen.KernelIdeal.Launch
import proofs.«174601_j55817394979140_1_alg».proof.Proof.Gen.KernelIdeal.Skeleton
import proofs.«174601_j55817394979140_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the pallas_call -/

/-- The core's buffers when the pallas_call is entered: after the cast of the embedding and the two reshapes of the labels. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: three host operations, the pallas_call, five host operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] hostOps0_sub
    hostOps0_fresh main_chain

/-- The three operations before the pallas_call write neither argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at grid point `t`, read off its array as the pallas_call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not (an unfetched
    window's block index has not moved since the last fetch). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two branches -/

/-- The first branch's condition (both grid coordinates zero): the accumulator is reset. -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at point 0 only. -/
theorem hcond0_0 : ∀ t : Fin cfg0.N, cond0_0 (grid0.coords t) ↔ t.val % 64 = 0 :=
  (by decide +kernel : ∀ t : Fin grid0.N, cond0_0 (grid0.coords t) ↔ t.val % 64 = 0)

/-- The second branch's condition (both grid coordinates seven): the accumulator is copied to the output block. -/
abbrev cond0_1 (i : grid0.Coords) : Prop := k0_cond2 i = 1#1
/-- It holds at point 63 only. -/
theorem hcond0_1 : ∀ t : Fin cfg0.N, cond0_1 (grid0.coords t) ↔ t.val % 64 = 63 :=
  (by decide +kernel : ∀ t : Fin grid0.N, cond0_1 (grid0.coords t) ↔ t.val % 64 = 63)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last point the body stores nothing into the output block, -/
theorem idleAt0_4 : ∀ t : Fin cfg0.N, ¬cond0_1 (grid0.coords t) → cfg0.idle 4 (grid0.coords t) = true := by decide +kernel
/-- and the block is not written back there. -/
theorem noFlush0_4 : ∀ t : Fin cfg0.N, ¬cond0_1 (grid0.coords t) → (cfg0.win 4).flush t = false := by decide +kernel
/-- At the last point the body stores into it. -/
theorem liveAt0_4 : ∀ t : Fin cfg0.N, cond0_1 (grid0.coords t) → cfg0.idle 4 (grid0.coords t) = false := by decide +kernel

/-! ## The memrefs the body is called with -/

abbrev ms0_0 (t : Fin cfg0.N) : Memref sig .tc .vmem S1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)
/-- The one-cell accumulator: a whole scoped buffer of the kernel's own. -/
abbrev scM0_0 : Memref sig .tc .vmem S1x1 .f32 := Memref.whole cc0_scratch0

/-- What the pallas_call hands the body beside the windows: the accumulator at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The accumulator, point by point -/

/-- One grid point's update of the accumulator: the tile's two masked sums added to what it held. -/
def tileAcc (x0 x1 : Vec F S1024x512 .bf16) (l2 : Vec F S1024x1 .i32) (l3 : Vec F S1x1024 .i32) (prev : Vec F S1x1 .f32) : Vec F S1x1 .f32 :=
  k0_pay1 (k0_pay5 x0 x1 l2 l3) (k0_pay6 x0 x1 l2 l3) prev

/-- The accumulator after grid point `n`: reset to zero at point 0, then one tile's sums added per point. -/
def accAt (c : Dev nD) : (n : ℕ) → n < cfg0.N → Vec F S1x1 .f32
  | 0, hn => tileAcc (iblk m c 0 ⟨0, hn⟩) (iblk m c 1 ⟨0, hn⟩) (iblk m c 2 ⟨0, hn⟩) (iblk m c 3 ⟨0, hn⟩) (k0_pay2 (F := F))
  | n + 1, hn => tileAcc (iblk m c 0 ⟨n + 1, hn⟩) (iblk m c 1 ⟨n + 1, hn⟩) (iblk m c 2 ⟨n + 1, hn⟩) (iblk m c 3 ⟨n + 1, hn⟩) (accAt c n (Nat.lt_of_succ_lt hn))

theorem accAt_zero (c : Dev nD) (t : Fin cfg0.N) (h0 : t.val = 0) :
    accAt m c t.val t.isLt = tileAcc (iblk m c 0 t) (iblk m c 1 t) (iblk m c 2 t) (iblk m c 3 t) (k0_pay2 (F := F)) := by
  obtain ⟨n, hn⟩ := t
  cases n with
  | zero => rfl
  | succ n => exact absurd h0 (Nat.succ_ne_zero n)

theorem accAt_pos (c : Dev nD) (t : Fin cfg0.N) (h0 : t.val ≠ 0) :
    accAt m c t.val t.isLt = tileAcc (iblk m c 0 t) (iblk m c 1 t) (iblk m c 2 t) (iblk m c 3 t) (accAt m c (t.val - 1) (Nat.lt_of_le_of_lt (Nat.sub_le _ _) t.isLt)) := by
  obtain ⟨n, hn⟩ := t
  cases n with
  | zero => exact absurd rfl h0
  | succ n => rfl

end Cert.KernelIdeal.Hand

end
-- ==== Proof.KI.Data.lean ====
/- The proof data of the pallas_call's pipeline on one core: what each array holds on entry, what each window's
   staging buffer holds after the body at each grid point (an input window its block; the output window the
   accumulator, which the body copies there at the last point), the invariant between points (the accumulator at
   its running value), and the shares: the embedding array is read through two windows, which hold one half of it each. -/
import proofs.«174601_j55817394979140_1_alg».proof.Proof.KI.Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant between grid points -/

/-- Before point 0 the accumulator holds anything; after point `n` it holds the running value. -/
def PhiS (c : Dev nD) : (n : ℕ) → n ≤ cfg0.N → sProp 𝕄
  | 0, _ => Pipeline.ΦA spec0 c
  | n + 1, hn => iprop(iprop(owns (c : Thread nD τ) scM0_0 fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM0_0 fullShare (accAt m c (n - 1) (by omega))) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => accAt m c t.val t.isLt
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = accAt m c t.val t.isLt := by dsimp only [dats]

theorem q0_0 (c : Dev nD) : (dats m 0 c).q 0 = fullShare.left := by dsimp only [dats]
theorem q0_1 (c : Dev nD) : (dats m 0 c).q 1 = fullShare.right := by dsimp only [dats]
theorem q0_2 (c : Dev nD) : (dats m 0 c).q 2 = fullShare := by dsimp only [dats]
theorem q0_3 (c : Dev nD) : (dats m 0 c).q 3 = fullShare := by dsimp only [dats]

/-- Each input window's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation's two sides at a grid point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-- What the pallas_call hands the body is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives that back: the accumulator's value is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

/-! ## The buffers when the pallas_call returns, and when the program ends -/

/-- The core's buffers when the pallas_call returns: the output array at what the write-backs left, every other
    buffer as the pallas_call found it. -/
def Wexit (c : Dev nD) : Valuation τ sig (Elt F) :=
  Function.update (V0 m c) (Proc.devRef .tc main_v3) ((dats m 0 c).arrAt 4 cfg0.N)

/-- The core's buffers when the program ends: after the five host operations that follow the pallas_call. -/
def Wfin (c : Dev nD) : Valuation τ sig (Elt F) := StableHlo.after hostOps1 (Wexit m c)

end Cert.KernelIdeal.Hand

end
-- ==== Proof.KI.RunA.lean ====
/- The body of the kernel at the first grid point, on any whole buffers: it resets the one-cell accumulator to zero and adds
   the tile's two masked sums to it; the four input blocks and the output block keep what they held. With it, the two facts
   every case uses to read the accumulator back: the zero offsets of a whole rectangle, and that a list of stores ending in a
   store through the whole cell covers the cell. -/
import proofs.«174601_j55817394979140_1_alg».proof.Proof.KI.Data
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a whole-buffer rectangle of rank two. -/
theorem hz : (![0, 0] : Fin 2 → Nat) = fun _ => 0 := funext fun a => by fin_cases a <;> rfl

/-- A list of stores into the one-cell buffer whose last store is through the whole cell covers the cell. -/
theorem cover_cons (w : Vec F S1x1 .f32) (L : List (View.Piece (Elt F) S1x1 .f32)) (y : S1x1.Idx) :
    ∃ p ∈ ((⟨Rect.unit (s := S1x1) ![0, 0] S1x1.size inb_S1x1_S1x1_0_0, w⟩ : View.Piece (Elt F) S1x1 .f32) :: L), y ∈ p.1.set :=
  ⟨_, List.mem_cons_self, View.mem_set_unit_zero hz inb_S1x1_S1x1_0_0 y⟩

set_option maxHeartbeats 1000000 in
/-- At a point where the first condition holds and the second fails, from the input blocks `x0 x1 l2 l3`, the output block at `xi4`
    and the accumulator at anything, the body leaves the accumulator at the tile's update of zero, `tileAcc x0 x1 l2 l3 k0_pay2`,
    and everything else as it was: the reset stores `k0_pay2`, the later load reads that back, and the last store through the
    whole cell is what the cell holds. -/
theorem run_A (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i)
    (x0 x1 : Vec F S1024x512 .bf16) (l2 : Vec F S1024x1 .i32) (l3 : Vec F S1x1024 .i32) (xi4 : Vec F S1x1 .f32)
    (E : Set ℕ) (K : PUnit → sProp 𝕄) :
    iprop(owns (c : Thread nD τ) arg2 fullShare x0 ∗ owns (c : Thread nD τ) arg3 fullShare x1
        ∗ owns (c : Thread nD τ) arg4 fullShare l2 ∗ owns (c : Thread nD τ) arg5 fullShare l3
        ∗ owns (c : Thread nD τ) arg6 fullShare xi4 ∗ (∃ d, owns (c : Thread nD τ) arg7 fullShare d)
        ∗ (iprop(owns (c : Thread nD τ) arg2 fullShare x0 ∗ owns (c : Thread nD τ) arg3 fullShare x1
            ∗ owns (c : Thread nD τ) arg4 fullShare l2 ∗ owns (c : Thread nD τ) arg5 fullShare l3
            ∗ owns (c : Thread nD τ) arg6 fullShare xi4
            ∗ owns (c : Thread nD τ) arg7 fullShare (tileAcc x0 x1 l2 l3 (k0_pay2 (F := F)))) -∗ K ⟨⟩))
      ⊢ wp frame (wpE (defs₀ (F := F)) Variants.none c none) E (cc0__contrastive_kernel i arg2 harg2 arg3 harg3 arg4 harg4 arg5 harg5 arg6 harg6 arg7 harg7) K := by
  simp only [cc0__contrastive_kernel_eq_skeleton]; unfold cc0__contrastive_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  obtain rfl := harg2.eq_unread hf0; obtain rfl := harg3.eq_unread hf1
  obtain rfl := harg4.eq_unread hf2; obtain rfl := harg5.eq_unread hf3
  obtain rfl := harg6.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact HS
  ipureintro
  sl_unfold_words
  rw [View.read_writes_eq_canon _ _ _ (cover_cons _ _), View.canon_cons_unit_zero (S := S1x1) hz]
  unfold tileAcc
  simp only [View.readAt_eq_ld, harg2.read_unread, harg3.read_unread, harg4.read_unread, harg5.read_unread, harg7.read_unread,
    View.ld_unit_zero (S := S1024x512) hz, View.ld_unit_zero (S := S1024x1) hz, View.ld_unit_zero (S := S1x1024) hz, View.ld_unit_zero (S := S1x1) hz,
    View.readCov_unit_zero (S := S1x1) _ hz]

end Cert.KernelIdeal.Hand

end
-- ==== Proof.KI.RunB.lean ====
/- The body of the kernel at a middle grid point, on any whole buffers: no reset and no copy to the output block; the
   accumulator goes from what the point before left to that plus the tile's two masked sums. -/
import proofs.«174601_j55817394979140_1_alg».proof.Proof.KI.RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At a point where both conditions fail, from the input blocks `x0 x1 l2 l3`, the output block at `xi4` and the accumulator at
    `prev`, the body leaves the accumulator at `tileAcc x0 x1 l2 l3 prev` and everything else as it was: its one store is through
    the whole cell, of the payload of what the loads read. -/
theorem run_B (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i)
    (x0 x1 : Vec F S1024x512 .bf16) (l2 : Vec F S1024x1 .i32) (l3 : Vec F S1x1024 .i32) (xi4 prev : Vec F S1x1 .f32)
    (E : Set ℕ) (K : PUnit → sProp 𝕄) :
    iprop(owns (c : Thread nD τ) arg2 fullShare x0 ∗ owns (c : Thread nD τ) arg3 fullShare x1
        ∗ owns (c : Thread nD τ) arg4 fullShare l2 ∗ owns (c : Thread nD τ) arg5 fullShare l3
        ∗ owns (c : Thread nD τ) arg6 fullShare xi4 ∗ owns (c : Thread nD τ) arg7 fullShare prev
        ∗ (iprop(owns (c : Thread nD τ) arg2 fullShare x0 ∗ owns (c : Thread nD τ) arg3 fullShare x1
            ∗ owns (c : Thread nD τ) arg4 fullShare l2 ∗ owns (c : Thread nD τ) arg5 fullShare l3
            ∗ owns (c : Thread nD τ) arg6 fullShare xi4
            ∗ owns (c : Thread nD τ) arg7 fullShare (tileAcc x0 x1 l2 l3 prev)) -∗ K ⟨⟩))
      ⊢ wp frame (wpE (defs₀ (F := F)) Variants.none c none) E (cc0__contrastive_kernel i arg2 harg2 arg3 harg3 arg4 harg4 arg5 harg5 arg6 harg6 arg7 harg7) K := by
  simp only [cc0__contrastive_kernel_eq_skeleton]; unfold cc0__contrastive_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg2.eq_unread hf0; obtain rfl := harg3.eq_unread hf1
  obtain rfl := harg4.eq_unread hf2; obtain rfl := harg5.eq_unread hf3
  obtain rfl := harg6.eq_unread hf4; obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact HS
  ipureintro
  sl_unfold_words
  rw [View.read_writes_eq_canon _ _ _ (cover_cons _ _), View.canon_cons_unit_zero (S := S1x1) hz]
  unfold tileAcc
  simp only [View.readAt_eq_ld, harg2.read_unread, harg3.read_unread, harg4.read_unread, harg5.read_unread, harg7.read_unread,
    View.ld_unit_zero (S := S1024x512) hz, View.ld_unit_zero (S := S1024x1) hz, View.ld_unit_zero (S := S1x1024) hz, View.ld_unit_zero (S := S1x1) hz,
    View.readCov_unit_zero (S := S1x1) _ hz]

end Cert.KernelIdeal.Hand

end
-- ==== Proof.KI.RunC.lean ====
/- The body of the kernel at the last grid point, on any whole buffers: the accumulator is updated as at a middle point, and
   its new value is then copied into the output block. -/
import proofs.«174601_j55817394979140_1_alg».proof.Proof.KI.RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At a point where the first condition fails and the second holds, from the input blocks `x0 x1 l2 l3`, the output block at
    anything and the accumulator at `prev`, the body leaves both the accumulator and the output block at
    `tileAcc x0 x1 l2 l3 prev`, and the input blocks as they were: the load after the update reads the update back, and that is
    what the store through the whole output cell leaves. -/
theorem run_C (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 x1 : Vec F S1024x512 .bf16) (l2 : Vec F S1024x1 .i32) (l3 : Vec F S1x1024 .i32) (prev : Vec F S1x1 .f32)
    (E : Set ℕ) (K : PUnit → sProp 𝕄) :
    iprop(owns (c : Thread nD τ) arg2 fullShare x0 ∗ owns (c : Thread nD τ) arg3 fullShare x1
        ∗ owns (c : Thread nD τ) arg4 fullShare l2 ∗ owns (c : Thread nD τ) arg5 fullShare l3
        ∗ (∃ d, owns (c : Thread nD τ) arg6 fullShare d) ∗ owns (c : Thread nD τ) arg7 fullShare prev
        ∗ (iprop(owns (c : Thread nD τ) arg2 fullShare x0 ∗ owns (c : Thread nD τ) arg3 fullShare x1
            ∗ owns (c : Thread nD τ) arg4 fullShare l2 ∗ owns (c : Thread nD τ) arg5 fullShare l3
            ∗ owns (c : Thread nD τ) arg6 fullShare (tileAcc x0 x1 l2 l3 prev)
            ∗ owns (c : Thread nD τ) arg7 fullShare (tileAcc x0 x1 l2 l3 prev)) -∗ K ⟨⟩))
      ⊢ wp frame (wpE (defs₀ (F := F)) Variants.none c none) E (cc0__contrastive_kernel i arg2 harg2 arg3 harg3 arg4 harg4 arg5 harg5 arg6 harg6 arg7 harg7) K := by
  simp only [cc0__contrastive_kernel_eq_skeleton]; unfold cc0__contrastive_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg2.eq_unread hf0; obtain rfl := harg3.eq_unread hf1
  obtain rfl := harg4.eq_unread hf2; obtain rfl := harg5.eq_unread hf3
  obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_words
    rw [View.read_writes_eq_canon _ _ _ (cover_cons _ _), View.canon_cons_unit_zero (S := S1x1) hz]
    unfold tileAcc
    simp only [View.readAt_eq_ld, harg2.read_unread, harg3.read_unread, harg4.read_unread, harg5.read_unread, harg7.read_unread,
      View.ld_unit_zero (S := S1024x512) hz, View.ld_unit_zero (S := S1024x1) hz, View.ld_unit_zero (S := S1x1024) hz, View.ld_unit_zero (S := S1x1) hz,
      View.readCov_unit_zero (S := S1x1) _ hz]
  iexists _; isplitr
  swap; · iexact HS
  ipureintro
  sl_unfold_words
  rw [View.read_writes_eq_canon _ _ _ (cover_cons _ _), View.canon_cons_unit_zero (S := S1x1) hz]
  unfold tileAcc
  simp only [View.readAt_eq_ld, harg2.read_unread, harg3.read_unread, harg4.read_unread, harg5.read_unread, harg7.read_unread,
    View.ld_unit_zero (S := S1024x512) hz, View.ld_unit_zero (S := S1024x1) hz, View.ld_unit_zero (S := S1x1024) hz, View.ld_unit_zero (S := S1x1) hz,
    View.readCov_unit_zero (S := S1x1) _ hz]

end Cert.KernelIdeal.Hand

end
-- ==== Proof.KI.Body.lean ====
/- The body of the kernel at every grid point: from the accumulator at its running value and the four input
   blocks, it leaves the accumulator one tile further, the input blocks in place, and at the last point the
   output block at the accumulator's value. -/
import proofs.«174601_j55817394979140_1_alg».proof.Proof.KI.RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4800000 in
/-- By cases on the point. At the first point the invariant hands the accumulator at anything and takes it back at the
    tile's update of zero; at every later point it hands it at the running value of the point before and takes it back one tile
    further; the input blocks are handed and returned in place; the output block is handed back untouched where it is idle, and
    at the last point returned at the accumulator's value. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases h0 : t.val % 64 = 0
  · -- the first point: the accumulator is reset, the output block is idle
    have hc0 : cond0_0 (grid0.coords t) := (hcond0_0 t).mpr h0
    have hc1 : ¬cond0_1 (grid0.coords t) := fun h => by have := (hcond0_1 t).mp h; omega
    have hz0 : t.val = 0 := by omega
    rw [Dat.leavesExact_idle (dats m 0 c) 4 t (idleAt0_4 t hc1) (noFlush0_4 t hc1)]
    rw [accAt_zero m c t hz0]
    rw [PhiS_castSucc m c t, PhiS_zero m c _ _ hz0, PhiA0_eq]
    iintro ⟨⟨HS0, Hg⟩, Ho, ⟨%d0, H0⟩, ⟨%d1, H1⟩, ⟨%d2, H2⟩, ⟨%d3, H3⟩, ⟨%d4, H4⟩⟩
    iapply (run_A c (grid0.coords t) _ _ _ _ _ _ _ _ _ _ _ _ hc0 hc1 (iblk m c 0 t) (iblk m c 1 t) (iblk m c 2 t) (iblk m c 3 t) ((dats m 0 c).before 4 t d4) Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    iexists _; iexact H4
  · have hc0 : ¬cond0_0 (grid0.coords t) := fun h => h0 ((hcond0_0 t).mp h)
    have hz0 : t.val ≠ 0 := fun h => h0 (by rw [h])
    rw [accAt_pos m c t hz0]
    rw [PhiS_castSucc m c t, PhiS_pos m c _ _ hz0]
    by_cases h1 : t.val % 64 = 63
    · -- the last point: the accumulator is updated and copied to the output block
      have hc1 : cond0_1 (grid0.coords t) := (hcond0_1 t).mpr h1
      rw [show (dats m 0 c).leavesExact 4 t = owns (c : Thread nD τ) (ms0_4 t) fullShare ((dats m 0 c).after 4 t) from by
        unfold Dat.leavesExact; rw [liveAt0_4 t hc1], after0_4, accAt_pos m c t hz0]
      iintro ⟨⟨HS0, Hg⟩, Ho, ⟨%d0, H0⟩, ⟨%d1, H1⟩, ⟨%d2, H2⟩, ⟨%d3, H3⟩, ⟨%d4, H4⟩⟩
      iapply (run_C c (grid0.coords t) _ _ _ _ _ _ _ _ _ _ _ _ hc0 hc1 (iblk m c 0 t) (iblk m c 1 t) (iblk m c 2 t) (iblk m c 3 t) (accAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, H4, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      iexact H4
    · -- a middle point: the accumulator is updated, the output block is idle
      have hc1 : ¬cond0_1 (grid0.coords t) := fun h => h1 ((hcond0_1 t).mp h)
      rw [Dat.leavesExact_idle (dats m 0 c) 4 t (idleAt0_4 t hc1) (noFlush0_4 t hc1)]
      iintro ⟨⟨HS0, Hg⟩, Ho, ⟨%d0, H0⟩, ⟨%d1, H1⟩, ⟨%d2, H2⟩, ⟨%d3, H3⟩, ⟨%d4, H4⟩⟩
      iapply (run_B c (grid0.coords t) _ _ _ _ _ _ _ _ _ _ _ _ hc0 hc1 (iblk m c 0 t) (iblk m c 1 t) (iblk m c 2 t) (iblk m c 3 t) ((dats m 0 c).before 4 t d4) (accAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Launch.lean ====
/- The whole program run: the host operations before the pallas_call, the pipeline over the 64 grid points, the
   host operations after it. Every weakly fair execution ends, nothing faults, the two arguments end as they
   were, and the three results end at what the five closing host operations compute from the output array. -/
import proofs.«174601_j55817394979140_1_alg».proof.Proof.KI.Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The shares the five windows hold their arrays at -/

theorem share0_0 (c : Dev nD) : (dats m 0 c).share 0 = fullShare.left := by unfold Dat.share; exact q0_0 m c
theorem share0_1 (c : Dev nD) : (dats m 0 c).share 1 = fullShare.right := by unfold Dat.share; exact q0_1 m c
theorem share0_2 (c : Dev nD) : (dats m 0 c).share 2 = fullShare := by unfold Dat.share; exact q0_2 m c
theorem share0_3 (c : Dev nD) : (dats m 0 c).share 3 = fullShare := by unfold Dat.share; exact q0_3 m c
theorem share0_4 (c : Dev nD) : (dats m 0 c).share 4 = fullShare := by unfold Dat.share; rfl

/-- The five windows' arrays as the proof data holds them (the embedding array one half per window) are the four
    buffers behind them, each whole at the full share, whenever the two windows on the embedding array hold the
    same contents. -/
theorem arrays_iff (c : Dev nD) (G : (w : Fin cfg0.W) → Buf (Elt F) ((cfg0.win w).arr.view.loc (c.tc : Thread nD τ)))
    (X : (b : Ref sig .tc) → Buf (Elt F) ((c.tc : Thread nD τ).loc b)) (hG : ∀ w, G w = X (Pipeline.arrRef spec0 w)) :
    ((dats m 0 c).arrays G : sProp 𝕄) ⊣⊢ Pipeline.arrBufs (Ix := Unit) (Name := ℕ) (U := UR sig nD τ) (Lvl := ℕ) spec0 c X := by
  classical
  unfold Pipeline.arrBufs Dat.arrays
  rw [bigSep_eq_bigSepL_of_eq [main_v0, main_v1, main_v2, main_v3] (by decide) (by decide), bigSep_W0]
  simp only [View.set_whole]
  rw [share0_0, share0_1, share0_2, share0_3, share0_4, hG 0, hG 1, hG 2, hG 3, hG 4]
  refine (show (_ : sProp 𝕄) ⊣⊢ iprop(((c.tc : Thread nD τ).loc main_v0 ↦{fullShare} X main_v0) ∗ ((c.tc : Thread nD τ).loc main_v1 ↦{fullShare} X main_v1)
      ∗ ((c.tc : Thread nD τ).loc main_v2 ↦{fullShare} X main_v2) ∗ ((c.tc : Thread nD τ).loc main_v3 ↦{fullShare} X main_v3)) from ⟨?_, ?_⟩)
  · iintro ⟨Hl, Hr, H1, H2, H3⟩
    isplitl [Hl Hr]
    · iapply (pointsTo_share (PosShare.mem_left_op_right fullShare)).2
      isplitl [Hl]; · iexact Hl
      iexact Hr
    isplitl [H1]; · iexact H1
    isplitl [H2]; · iexact H2
    iexact H3
  · iintro ⟨H0, H1, H2, H3⟩
    ihave H0' := (pointsTo_share (PosShare.mem_left_op_right fullShare)).1 $$ H0
    icases H0' with ⟨Hl, Hr⟩
    isplitl [Hl]; · iexact Hl
    isplitl [Hr]; · iexact Hr
    isplitl [H1]; · iexact H1
    isplitl [H2]; · iexact H2
    iexact H3

/-- On entry: the buffers behind the arrays, as the pallas_call finds them, are the proof data's arrays. -/
theorem hsplit (c : Dev nD) :
    (Pipeline.arrBufs (Ix := Unit) (Name := ℕ) (U := UR sig nD τ) (Lvl := ℕ) spec0 c (V m c) : sProp 𝕄) ⊢ (dats m 0 c).arrays ((dats m 0 c).arrAt · 0) :=
  (arrays_iff m c _ (V m c) fun w => A_eq m c w).2

/-! ## The buffers around the five closing host operations -/

/-- An input window's array is never written back: it holds what the pallas_call found. -/
theorem arrAt_0 (c : Dev nD) (n : ℕ) : (dats m 0 c).arrAt 0 n = V m c main_v0 := (Pipeline.Dat.arrAt_in (dats m 0 c) 0 rfl n).trans (A_eq m c 0)
theorem arrAt_1 (c : Dev nD) (n : ℕ) : (dats m 0 c).arrAt 1 n = V m c main_v0 := (Pipeline.Dat.arrAt_in (dats m 0 c) 1 rfl n).trans (A_eq m c 1)
theorem arrAt_2 (c : Dev nD) (n : ℕ) : (dats m 0 c).arrAt 2 n = V m c main_v1 := (Pipeline.Dat.arrAt_in (dats m 0 c) 2 rfl n).trans (A_eq m c 2)
theorem arrAt_3 (c : Dev nD) (n : ℕ) : (dats m 0 c).arrAt 3 n = V m c main_v2 := (Pipeline.Dat.arrAt_in (dats m 0 c) 3 rfl n).trans (A_eq m c 3)

theorem Wexit_v3 (c : Dev nD) : Wexit m c (Proc.devRef .tc main_v3) = (dats m 0 c).arrAt 4 cfg0.N := by
  unfold Wexit; exact Function.update_self _ _ _
theorem Wexit_ne (c : Dev nD) (b : Ref sig .tc) (hb : b ≠ main_v3) : Wexit m c (Proc.devRef .tc b) = V m c b := by
  unfold Wexit; exact Function.update_of_ne (StableHlo.devRef_ne_of_ne hb) _ _

/-- The five closing operations write the scalar copy of the output, the divisor, the quotient and the two integer constants. -/
theorem hostOps1_writes : (hostOps1 : List (HloOp τ sig (Elt F))).Forall fun op =>
    op.writes ⊆ (([main_v4, main_cst, main_v5, main_c, main_c_0] : List (Ref sig .tc)).map (Proc.devRef (τ := τ) .tc)).toFinset := by
  simp only [hostOps1, List.Forall, StableHlo.nullary_writes, StableHlo.binary_writes, StableHlo.reshape_writes,
    Finset.singleton_subset_iff, List.mem_toFinset, List.mem_map]
  exact ⟨⟨main_v4, by decide, rfl⟩, ⟨main_cst, by decide, rfl⟩, ⟨main_v5, by decide, rfl⟩, ⟨main_c, by decide, rfl⟩, ⟨main_c_0, by decide, rfl⟩⟩

/-- Every other buffer is, at the end, as the pallas_call left it. -/
theorem Wfin_keep (c : Dev nD) (b : Ref sig .tc) (hb : b ∉ ([main_v4, main_cst, main_v5, main_c, main_c_0] : List (Ref sig .tc))) :
    Wfin m c (Proc.devRef .tc b) = Wexit m c (Proc.devRef .tc b) := by
  unfold Wfin; exact StableHlo.after_of_writes_sub hostOps1 _ hostOps1_writes hb

/-- The arrays when the pallas_call returns, read off the buffers then, -/
theorem arrAt_exit (c : Dev nD) : ∀ w, (dats m 0 c).arrAt w cfg0.N = Wexit m c (Proc.devRef .tc (Pipeline.arrRef spec0 w))
  | 0 => (arrAt_0 m c _).trans (Wexit_ne m c main_v0 (by decide)).symm
  | 1 => (arrAt_1 m c _).trans (Wexit_ne m c main_v0 (by decide)).symm
  | 2 => (arrAt_2 m c _).trans (Wexit_ne m c main_v1 (by decide)).symm
  | 3 => (arrAt_3 m c _).trans (Wexit_ne m c main_v2 (by decide)).symm
  | 4 => (Wexit_v3 m c).symm
  | ⟨_ + 5, h⟩ => absurd h (Nat.not_lt.2 (Nat.le_add_left _ _))
/-- and off the buffers when the program ends: the closing operations write none of them. -/
theorem arrAt_fin (c : Dev nD) (w : Fin cfg0.W) : (dats m 0 c).arrAt w cfg0.N = Wfin m c (Proc.devRef .tc (Pipeline.arrRef spec0 w)) :=
  (arrAt_exit m c w).trans (Wfin_keep m c _ (by revert w; decide)).symm

/-! ## The five closing host operations -/

theorem sfx_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- The buffers no window reads or writes, when the pallas_call is entered, -/
abbrev Zent (c : Dev nD) : sProp 𝕄 := Pipeline.unscopedRest (Ix := Unit) (Name := ℕ) (U := UR sig nD τ) (Lvl := ℕ) spec0 c (V m c)
/-- and when the program ends. -/
abbrev Zfin (c : Dev nD) : sProp 𝕄 := Pipeline.unscopedRest (Ix := Unit) (Name := ℕ) (U := UR sig nD τ) (Lvl := ℕ) spec0 c (fun b => Wfin m c (Proc.devRef .tc b))

/-- Every unscoped buffer held whole at a valuation is the windows' arrays and the rest, the arrays being at that valuation. -/
theorem held_iff (c : Dev nD) (Wv : Valuation τ sig (Elt F)) (hW : ∀ w, (dats m 0 c).arrAt w cfg0.N = Wv (Proc.devRef .tc (Pipeline.arrRef spec0 w))) :
    (StableHlo.held (c.tc : Thread nD τ) (Pipeline.ucRefs τ sig) Wv : sProp 𝕄)
      ⊣⊢ iprop((dats m 0 c).arrays ((dats m 0 c).arrAt · cfg0.N)
          ∗ Pipeline.unscopedRest (Ix := Unit) (Name := ℕ) (U := UR sig nD τ) (Lvl := ℕ) spec0 c (fun b => Wv (Proc.devRef .tc b))) := by
  rw [← Pipeline.unscopedBufs_held (Ix := Unit) (Name := ℕ) (U := UR sig nD τ) (Lvl := ℕ) c Wv,
    Pipeline.unscopedBufs_split₀ cfgs 0 winFacts₀0.arr_unscoped c]
  have h := arrays_iff m c ((dats m 0 c).arrAt · cfg0.N) (fun b => Wv (Proc.devRef .tc b)) hW
  constructor
  · iintro ⟨Ha, Hz⟩
    isplitl [Ha]
    · iapply h.2; iexact Ha
    iexact Hz
  · iintro ⟨Ha, Hz⟩
    isplitl [Ha]
    · iapply h.1; iexact Ha
    iexact Hz

theorem Zent_eq (c : Dev nD) : (Zent m c : sProp 𝕄)
    = Pipeline.unscopedRest (Ix := Unit) (Name := ℕ) (U := UR sig nD τ) (Lvl := ℕ) spec0 c (fun b => Wexit m c (Proc.devRef .tc b)) := by
  classical
  unfold Zent Pipeline.unscopedRest
  exact bigSep_congr fun b hb => by
    beta_reduce
    rw [Wexit_ne m c b fun e => (Finset.mem_sdiff.mp hb).2 (Finset.mem_image.mpr ⟨4, Finset.mem_univ _, e.symm⟩)]

set_option backward.isDefEq.respectTransparency.types false in
/-- From the pallas_call's exit the five operations run, touching unscoped buffers only, and hand back the arrays as
    they were and every other buffer at its final contents. -/
theorem htail (c : Dev nD) (Q' : PUnit → sProp 𝕄) :
    iprop((iprop((dats m 0 c).arrays ((dats m 0 c).arrAt · cfg0.N) ∗ Zfin m c) -∗ Q' ⟨⟩)
        ∗ boundary (c.tc : Thread nD τ) ∗ (dats m 0 c).arrays ((dats m 0 c).arrAt · cfg0.N) ∗ Zent m c)
      ⊢ wp frame (wpE (Pipeline.defs (pcfgs (F := F)) defs₀) (Variants.lift Variants.none) (c.tc : Thread nD τ) none) Set.univ
          (Pipeline.chain [StableHlo.seq hostOps1]) Q' := by
  have hfl : ([hostOps1] : List (List (HloOp τ sig (Elt F)))).flatten = hostOps1 := by
    simp only [List.flatten_cons, List.flatten_nil, List.append_nil]
  rw [Zent_eq]
  show _ ⊢ wp frame _ Set.univ (Pipeline.chain (([hostOps1] : List (List (HloOp τ sig (Elt F)))).map StableHlo.seq ++ [])) Q'
  iintro ⟨Hk, Hb, Ha, Hz⟩
  ihave Hh := (held_iff m c (Wexit m c) (arrAt_exit m c)).2 $$ [Ha Hz]
  · isplitl [Ha] <;> iassumption
  iapply (Pipeline.wp_seqs_then pcfgs defs₀ Variants.none c (Pipeline.ucRefs τ sig) [] [hostOps1] sfx_sub sfx_fresh (Wexit m c)) $$ [Hb Hh]
  · isplitl [Hb] <;> iassumption
  iintro Hb
  rw [Pipeline.chain_nil, wp_pure, hfl]
  imodintro
  iapply Hk
  icases Hb with ⟨-, H⟩
  iapply (held_iff m c (Wfin m c) (arrAt_fin m c)).1
  iexact H

/-! ## What the final memory holds -/

theorem Wfin_arg0 (c : Dev nD) : Wfin m c (Proc.devRef .tc main_arg0) = m ((c.tc : Thread nD τ).loc main_arg0) :=
  (Wfin_keep m c main_arg0 (by decide)).trans ((Wexit_ne m c main_arg0 (by decide)).trans (V_main_arg0 m c))
theorem Wfin_arg1 (c : Dev nD) : Wfin m c (Proc.devRef .tc main_arg1) = m ((c.tc : Thread nD τ).loc main_arg1) :=
  (Wfin_keep m c main_arg1 (by decide)).trans ((Wexit_ne m c main_arg1 (by decide)).trans (V_main_arg1 m c))

/-- Every buffer no window reads or writes ends at its final contents. -/
abbrev QY (c : Dev nD) (s : MemSt nD τ sig (Elt F)) : Prop :=
  ∀ b ∈ Pipeline.restRefs sig spec0, s.mem ((c.tc : Thread nD τ).loc b) = Wfin m c (Proc.devRef .tc b)

theorem hY (c : Dev nD) (s' : Phys nD τ sig (Elt F)) :
    iprop(iprop(∃ r, prngReg c r) ∗ Zfin m c ∗ SI s') ⊢ |={Set.univ}=> iprop(⌜QY m c s'.mem⌝ ∗ (SI s' : sProp 𝕄)) := by
  iintro ⟨-, HU, HSI⟩
  unfold Zfin Pipeline.unscopedRest
  imodintro
  iapply (pointsTo_read_all (Pipeline.restRefs sig spec0) (fun b => (c.tc : Thread nD τ).loc b) (fun b => Wfin m c (Proc.devRef .tc b)) s')
  isplitl [HU] <;> iassumption

theorem hQ (s : MemSt nD τ sig (Elt F)) (c : Dev nD) (h : QY m c s) :
      s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_v5) = Wfin m c (Proc.devRef .tc main_v5)
      ∧ s.mem ((c.tc : Thread nD τ).loc main_c) = Wfin m c (Proc.devRef .tc main_c)
      ∧ s.mem ((c.tc : Thread nD τ).loc main_c_0) = Wfin m c (Proc.devRef .tc main_c_0) :=
  ⟨(h main_arg0 (Pipeline.mem_restRefs_of _ (by decide) (by decide))).trans (Wfin_arg0 m c),
   (h main_arg1 (Pipeline.mem_restRefs_of _ (by decide) (by decide))).trans (Wfin_arg1 m c),
   h main_v5 (Pipeline.mem_restRefs_of _ (by decide) (by decide)),
   h main_c (Pipeline.mem_restRefs_of _ (by decide) (by decide)),
   h main_c_0 (Pipeline.mem_restRefs_of _ (by decide) (by decide))⟩

/-! ## The run -/

set_option backward.isDefEq.respectTransparency.types false in
theorem run_main : θ_run defs (onTc (τ := τ) (main (F := F))) (s₀ m ρ) (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v5) = Wfin m c (Proc.devRef .tc main_v5)
      ∧ r.2.mem ((c.tc : Thread nD τ).loc main_c) = Wfin m c (Proc.devRef .tc main_c)
      ∧ r.2.mem ((c.tc : Thread nD τ).loc main_c_0) = Wfin m c (Proc.devRef .tc main_c_0)) := by
  classical
  exact Pipeline.θ_run_region_pf_tail (fun q => (cfgs q).toPCfg (Val := Elt F)) (fun q => (cfgs q).toPCfg_adm) (dats m) () cellOf_inj 0
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := Zent m) (Z' := Zfin m)
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c from by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := htail m)
    (QY := QY m)
    (hY := hY m)
    (hQ := fun s h c => hQ m s c (h c).2.2)

end Cert.KernelIdeal.Hand

end
-- ==== Proof.KI.TileSum.lean ====
/- One grid point's contribution to the accumulator at the extended reals: the tile's sum of equal-label terms
   plus its sum of different-label terms, as the body computes them from the four blocks it loads. -/
import proofs.«174601_j55817394979140_1_alg».proof.Proof.KI.Data
import Idealize.ShloMosaic.PureOps.Ideal
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What grid point `t` adds to the accumulator. -/
def tileSum (mI : (ℓ : Loc nD τ sig) → Buf (Elt Ideal) ℓ) (c : Dev nD) (t : Fin cfg0.N) : EReal :=
  k0_pay5 (F := Ideal) (iblk mI c 0 t) (iblk mI c 1 t) (iblk mI c 2 t) (iblk mI c 3 t)
    + extractAt ![0, 0, 0] (k0_pay6 (F := Ideal) (iblk mI c 0 t) (iblk mI c 1 t) (iblk mI c 2 t) (iblk mI c 3 t)) Facts₀.inpos_S1x1x1_p0_0_0

end Cert.KernelIdeal.Hand

end
-- ==== Proof.KI.Out.lean ====
/- What the program's results hold at the extended reals, in terms of the per-point contributions: the
   accumulator after the last grid point is the sum of the 64 contributions; the output array ends holding it;
   the closing host operations divide it by the number of rows and set the two integer results to zero. -/
import proofs.«174601_j55817394979140_1_alg».proof.Proof.KI.TileSum
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (mI : (ℓ : Loc nD τ sig) → Buf (Elt Ideal) ℓ)

/-- One point's update adds the point's two masked sums to the one cell. -/
theorem tileAcc_ideal (x0 x1 : Vec Ideal S1024x512 .bf16) (l2 : Vec Ideal S1024x1 .i32) (l3 : Vec Ideal S1x1024 .i32)
    (prev : FVec Ideal S1x1 .f32) :
    tileAcc (F := Ideal) x0 x1 l2 l3 prev
      = fun i => prev i + (k0_pay5 (F := Ideal) x0 x1 l2 l3
          + extractAt ![0, 0, 0] (k0_pay6 (F := Ideal) x0 x1 l2 l3) Facts₀.inpos_S1x1x1_p0_0_0) := by
  unfold tileAcc k0_pay1
  dsimp only
  rw [shapeCast_self]
  rfl

/-- The reset block is zero. -/
theorem pay2_ideal : k0_pay2 (F := Ideal) = fun _ => (0 : EReal) := by
  unfold k0_pay2
  dsimp only
  rw [shapeCast_self]
  funext i
  exact Ideal.ofBits_zero_f32

/-- The accumulator after point `n` holds the sum of the contributions of the points up to `n`. -/
theorem accAt_ideal (c : Dev nD) : ∀ (n : ℕ) (hn : n < cfg0.N),
    accAt (F := Ideal) mI c n hn = fun _ => ∑ t : Fin (n + 1), tileSum mI c ⟨t.val, Nat.lt_of_lt_of_le t.isLt hn⟩
  | 0, hn => by
    refine (tileAcc_ideal (iblk mI c 0 ⟨0, hn⟩) (iblk mI c 1 ⟨0, hn⟩) (iblk mI c 2 ⟨0, hn⟩) (iblk mI c 3 ⟨0, hn⟩)
      (k0_pay2 (F := Ideal))).trans ?_
    rw [pay2_ideal]
    funext i
    rw [Fin.sum_univ_one]
    exact zero_add _
  | n + 1, hn => by
    refine (tileAcc_ideal (iblk mI c 0 ⟨n + 1, hn⟩) (iblk mI c 1 ⟨n + 1, hn⟩) (iblk mI c 2 ⟨n + 1, hn⟩) (iblk mI c 3 ⟨n + 1, hn⟩)
      (accAt (F := Ideal) mI c n (Nat.lt_of_succ_lt hn))).trans ?_
    rw [accAt_ideal c n (Nat.lt_of_succ_lt hn)]
    funext i
    exact (Fin.sum_univ_castSucc (f := fun t : Fin (n + 1 + 1) => tileSum mI c ⟨t.val, Nat.lt_of_lt_of_le t.isLt hn⟩)).symm

/-! ## The output array after the write-backs -/

/-- The last grid point. -/
abbrev tLast : Fin cfg0.N := ⟨63, by rw [show cfg0.N = 64 from N_0]; decide⟩

/-- The accumulator after the last point, as contents of the output array (whose one block is the whole array). -/
abbrev accLast (m : (ℓ : Loc nD τ sig) → Buf (Elt F) ℓ) (c : Dev nD) : Buf (Elt F) ((c : Thread nD τ).loc main_v3) :=
  accAt m c 63 (by rw [show cfg0.N = 64 from N_0]; decide)

/-- The one write-back, at the last point, writes it: the 1×1 block at offsets zero is the whole 1×1 array. -/
theorem flushed_last (m : (ℓ : Loc nD τ sig) → Buf (Elt F) ℓ) (c : Dev nD) (t : Fin cfg0.N) (hf : (cfg0.win 4).flush t = true) :
    (dats m 0 c).flushed 4 t = ((cfg0.win 4).blk t).view.read (Elt F) (accLast m c) := by
  have hN : cfg0.N = 64 := N_0
  have h63 : t.val = 63 := by have := (flush0_4 t).mp hf; have := t.isLt; omega
  obtain rfl : t = tLast := Fin.ext h63
  show (cfg0.win 4).cut (grid0.coords tLast) ((dats m 0 c).after 4 tLast) = _
  rw [after0_4]
  have hz : (fun a => win0_4.index tLast a * main_v3.ty.shape.size a) = fun _ => 0 := funext fun a => by fin_cases a <;> decide
  exact (Memref.read_access_unit_zero (Elt F) main_v3 hz (fun a => by rw [congrFun hz a]; simp) (accLast m c)).symm

/-- So the output array ends holding the accumulator after the last point. -/
theorem arr_final (m : (ℓ : Loc nD τ sig) → Buf (Elt F) ℓ) (c : Dev nD) : (dats m 0 c).arrAt 4 cfg0.N = accLast m c :=
  (dats m 0 c).arrAt_eq_of_cover 4 (accLast m c) (flushed_last m c) fun i =>
    ⟨tLast, (flush0_4 tLast).mpr rfl, by
      show i ∈ ((View.whole main_v3).slice (win0_4.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_4.index tLast 0 * win0_4.size 0 ≤ (i 0 : Nat)
          ∧ (i 0 : Nat) < win0_4.index tLast 0 * win0_4.size 0 + win0_4.xsize (grid0.coords tLast) 0
        rw [show win0_4.index tLast 0 * win0_4.size 0 = 0 from by decide +kernel,
          show win0_4.xsize (grid0.coords tLast) 0 = 1 from by decide +kernel]
        omega
      | ⟨1, _⟩ =>
        show win0_4.index tLast 1 * win0_4.size 1 ≤ (i 1 : Nat)
          ∧ (i 1 : Nat) < win0_4.index tLast 1 * win0_4.size 1 + win0_4.xsize (grid0.coords tLast) 1
        rw [show win0_4.index tLast 1 * win0_4.size 1 = 0 from by decide +kernel,
          show win0_4.xsize (grid0.coords tLast) 1 = 1 from by decide +kernel]
        omega⟩

/-- At the last point the sum runs over every grid point. -/
theorem accLast_ideal (c : Dev nD) :
    accLast (F := Ideal) mI c = fun _ => ∑ t : Fin cfg0.N, tileSum mI c t := by
  refine (accAt_ideal mI c 63 _).trans ?_
  funext _
  exact Fintype.sum_equiv (finCongr (by rw [show cfg0.N = 64 from N_0])) _ _ (fun t => rfl)

/-- The first result: the sum of the 64 contributions divided by the number of rows. -/
theorem Wfin_v5 (c : Dev nD) :
    Wfin (F := Ideal) mI c (Proc.devRef .tc main_v5) = fun _ => Ideal.div (∑ t : Fin cfg0.N, tileSum mI c t) (Ideal.ofBits .f32 0x46000000#32) := by
  have e : Wexit (F := Ideal) mI c (Proc.devRef .tc main_v3) = fun _ => ∑ t : Fin cfg0.N, tileSum mI c t := by
    unfold Wexit
    rw [Function.update_self]
    exact (arr_final mI c).trans (accLast_ideal mI c)
  unfold Wfin
  show StableHlo.after hostOps1 _ (Proc.devRef .tc main_v5) = _
  after_results
  rw [e]
  rfl

/-- The two integer results are zero (at any float family). -/
theorem Wfin_c (m : (ℓ : Loc nD τ sig) → Buf (Elt F) ℓ) (c : Dev nD) : Wfin m c (Proc.devRef .tc main_c) = constantI S_ 32 0#32 := by
  unfold Wfin
  show StableHlo.after hostOps1 _ (Proc.devRef .tc main_c) = _
  after_results
theorem Wfin_c_0 (m : (ℓ : Loc nD τ sig) → Buf (Elt F) ℓ) (c : Dev nD) : Wfin m c (Proc.devRef .tc main_c_0) = constantI S_ 32 0#32 := by
  unfold Wfin
  show StableHlo.after hostOps1 _ (Proc.devRef .tc main_c_0) = _
  after_results

end Cert.KernelIdeal.Hand

end
-- ==== Proof.KI.TileVal.lean ====
/- One tile's two masked sums as double sums over the tile's rows and columns: the similarity of row a of the first
   block with row b of the second is their inner product over the 512 columns; the label bit compares the first
   label block's entry a with the second's entry b; the equal-label sum adds one minus the similarity where the
   labels agree and the similarity is below one, the different-label sum adds the similarity where the labels
   differ and it is above one half; each is the total over the 1024 × 1024 pairs. -/
import proofs.«174601_j55817394979140_1_alg».proof.Proof.Gen.KernelIdeal.Skeleton
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Idealize.ShloMosaic Idealize.ShloMosaic.TcCoe
open Idealize.SL.Sem
open Cert.KernelIdeal Cert.KernelIdeal.Gen
open Idealize.ShloMosaic.ValueIdx

theorem lhs_pay3_0 (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem lhs_pay3_1 (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q
theorem rhs_pay3_0 (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem rhs_pay3_1 (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

/-- The tile's similarity of row `a` of the first block with row `b` of the second: their inner product. -/
def tsim (x0 x1 : FVec Ideal S1024x512 .bf16) (a b : Fin 1024) : EReal := ∑ k : Fin 512, x0 (ix2 a k) * x1 (ix2 b k)

theorem pay3_apply (x0 x1 : FVec Ideal S1024x512 .bf16) (a b : Fin 1024) :
    k0_pay3 (F := Ideal) x0 x1 (ix2 a b) = tsim x0 x1 a b := by
  unfold k0_pay3 tsim
  rw [shapeCast_self, shapeCast_self]
  simp only [matmul]
  rw [Ideal.matmul_constant_zero_apply, ← Equiv.sum_comp (ValueIdx.contrEquiv1 dot_S1024x512_S1024x512_S1024x1024_1_1_0_0_n_n 512 rfl rfl).symm]
  refine Finset.sum_congr rfl fun k _ => ?_
  have hk := ValueIdx.contrEquiv1_symm_val dot_S1024x512_S1024x512_S1024x1024_1_1_0_0_n_n 512 rfl rfl k
  have el : dot_S1024x512_S1024x512_S1024x1024_1_1_0_0_n_n.lhsIdx (ix2 a b) ((ValueIdx.contrEquiv1 dot_S1024x512_S1024x512_S1024x1024_1_1_0_0_n_n 512 rfl rfl).symm k) = ix2 a k := funext fun c => Fin.ext (by
    match c with
    | ⟨0, _⟩ => exact lhs_pay3_0 _ _
    | ⟨1, _⟩ => exact (lhs_pay3_1 _ _).trans hk)
  have er : dot_S1024x512_S1024x512_S1024x1024_1_1_0_0_n_n.rhsIdx (ix2 a b) ((ValueIdx.contrEquiv1 dot_S1024x512_S1024x512_S1024x1024_1_1_0_0_n_n 512 rfl rfl).symm k) = ix2 b k := funext fun c => Fin.ext (by
    match c with
    | ⟨0, _⟩ => exact rhs_pay3_0 _ _
    | ⟨1, _⟩ => exact (rhs_pay3_1 _ _).trans hk)
  rw [el, er]

/-- A `[a, 1]` array broadcast to `[a, b]` reads, at `(p, c)`, the operand's one column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Whether row `a` of the first label block and row `b` of the second carry the same label. -/
theorem pay4_apply (l2 : IVec S1024x1 32) (l3 : IVec S1x1024 32) (a b : Fin 1024) :
    k0_pay4 (F := Ideal) l2 l3 (ix2 a b) = IntOp.cmpi .eq (l2 (ix2 a (0 : Fin 1))) (l3 (ix2 (0 : Fin 1) b)) := by
  unfold k0_pay4
  rw [shapeCast_self, shapeCast_self]
  show IntOp.cmpi .eq (broadcastTo S1024x1024 l2 _ (ix2 a b)) (broadcastTo S1024x1024 l3 _ (ix2 a b)) = _
  rw [broadcastTo_a1_ab_apply, broadcastTo_1b_ab_apply]

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The sum of a whole 1 × 1024 × 1024 vector into one cell, read at that cell: the double sum over rows and columns. -/
theorem extract_total (src : FVec Ideal S1x1024x1024 .f32) (h : S1x1024x1024.Reduces [1, 2] S1) (hφ : FKind.Formats .f32)
    (hacc : (0x00000000#32 : BitVec 32) = FKind.add.neutral .f32 hφ) (hc : S1.ShapeCasts S1x1x1)
    (hp : ∀ a, (![0, 0, 0] : Fin 3 → Nat) a < S1x1x1.size a) :
    extractAt ![0, 0, 0] (shapeCast S1x1x1 (multiReduction (F := Ideal) .add [1, 2] S1 src 0x00000000#32 h hφ hacc) hc) hp
      = ∑ a : Fin 1024, ∑ b : Fin 1024, src (ix3 (0 : Fin 1) a b) := by
  unfold extractAt shapeCast
  rw [Ideal.multiReduction_add_total src _ h (fun b => match b with | ⟨0, _⟩ => rfl) hφ hacc, sum_idx3, Fin.sum_univ_one]

/-- What a pair of rows with similarity `s` and label-equality bit `e` contributes to the equal-label sum … -/
def posT (s : EReal) (e : BitVec 1) : EReal :=
  Scalar.select (IntOp.andi e (Ideal.cmp .olt s (Ideal.ofBits .f32 0x3F800000#32))) (Ideal.ofBits .f32 0x3F800000#32 - s) (Ideal.ofBits .f32 0x00000000#32)
/-- … and to the different-label sum. -/
def negT (s : EReal) (e : BitVec 1) : EReal :=
  Scalar.select (IntOp.andi (IntOp.xori e 1#1) (Ideal.cmp .ogt s (Ideal.ofBits .f32 0x3F000000#32))) s (Ideal.ofBits .f32 0x00000000#32)

/-- The tile's equal-label sum. -/
theorem pay5_eq (x0 x1 : FVec Ideal S1024x512 .bf16) (l2 : IVec S1024x1 32) (l3 : IVec S1x1024 32) :
    k0_pay5 (F := Ideal) x0 x1 l2 l3
      = ∑ a : Fin 1024, ∑ b : Fin 1024, posT (tsim x0 x1 a b) (IntOp.cmpi .eq (l2 (ix2 a (0 : Fin 1))) (l3 (ix2 (0 : Fin 1) b))) := by
  unfold k0_pay5
  refine (extract_total _ _ _ _ _ _).trans ?_
  refine Finset.sum_congr rfl fun a _ => Finset.sum_congr rfl fun b _ => ?_
  rw [shapeCast_ab_1ab_apply]
  show Scalar.select (IntOp.andi (k0_pay4 (F := Ideal) l2 l3 (ix2 a b)) (Ideal.cmp .olt (k0_pay3 (F := Ideal) x0 x1 (ix2 a b)) _)) (_ - k0_pay3 (F := Ideal) x0 x1 (ix2 a b)) _ = _
  rw [pay3_apply, pay4_apply]
  rfl

/-- The tile's different-label sum. -/
theorem pay6_eq (x0 x1 : FVec Ideal S1024x512 .bf16) (l2 : IVec S1024x1 32) (l3 : IVec S1x1024 32)
    (hp : ∀ a, (![0, 0, 0] : Fin 3 → Nat) a < S1x1x1.size a) :
    extractAt ![0, 0, 0] (k0_pay6 (F := Ideal) x0 x1 l2 l3) hp
      = ∑ a : Fin 1024, ∑ b : Fin 1024, negT (tsim x0 x1 a b) (IntOp.cmpi .eq (l2 (ix2 a (0 : Fin 1))) (l3 (ix2 (0 : Fin 1) b))) := by
  unfold k0_pay6
  refine (extract_total _ _ _ _ _ _).trans ?_
  refine Finset.sum_congr rfl fun a _ => Finset.sum_congr rfl fun b _ => ?_
  rw [shapeCast_ab_1ab_apply]
  show Scalar.select (IntOp.andi (IntOp.xori (k0_pay4 (F := Ideal) l2 l3 (ix2 a b)) 1#1) (Ideal.cmp .ogt (k0_pay3 (F := Ideal) x0 x1 (ix2 a b)) _)) (k0_pay3 (F := Ideal) x0 x1 (ix2 a b)) _ = _
  rw [pay3_apply, pay4_apply]
  rfl

end Cert.KernelIdeal.Hand

end
-- ==== Proof.KI.Regroup.lean ====
/- Sums over all pairs of rows, regrouped by tile: the 64 tiles of 1024 × 1024 pairs, tile t pairing rows
   (t / 8)·1024 + a with rows (t % 8)·1024 + b, partition the 8192 × 8192 pairs, so a sum over the tiles of the
   sums over each tile's pairs is the sum over all pairs. -/
import Mathlib.Algebra.BigOperators.Fin
import Mathlib.Algebra.BigOperators.Group.Finset.Basic
import Mathlib.Logic.Equiv.Fin.Basic

namespace Cert.KernelIdeal.Hand

open scoped BigOperators

/-- A sum over `Fin (m * n)` by blocks of `n`: the index is `a + n * i`. -/
theorem sum_blocks {M : Type*} [AddCommMonoid M] (m n : ℕ) (g : Fin (m * n) → M) :
    ∑ p, g p = ∑ i : Fin m, ∑ a : Fin n, g (finProdFinEquiv (i, a)) := by
  rw [← finProdFinEquiv.sum_comp, Fintype.sum_prod_type]

/-- The row of the whole matrix that is row `a` of block `i`. -/
def rowOf (i : ℕ) (hi : i < 8) (a : Fin 1024) : Fin 8192 := ⟨i * 1024 + a.val, by have := a.isLt; omega⟩

theorem rowOf_val (i : ℕ) (hi : i < 8) (a : Fin 1024) : (rowOf i hi a).val = i * 1024 + a.val := rfl

theorem sum_rows {M : Type*} [AddCommMonoid M] (g : Fin 8192 → M) :
    ∑ p, g p = ∑ i : Fin 8, ∑ a : Fin 1024, g (rowOf i.val i.isLt a) := by
  rw [sum_blocks 8 1024 g]
  refine Finset.sum_congr rfl fun i _ => Finset.sum_congr rfl fun a _ => congrArg g (Fin.ext ?_)
  show a.val + 1024 * i.val = i.val * 1024 + a.val
  omega

theorem sum_points {M : Type*} [AddCommMonoid M] (g : (i j : ℕ) → i < 8 → j < 8 → M) :
    ∑ t : Fin 64, g (t.val / 8) (t.val % 8) (by have := t.isLt; omega) (Nat.mod_lt _ (by decide))
      = ∑ i : Fin 8, ∑ j : Fin 8, g i.val j.val i.isLt j.isLt := by
  rw [sum_blocks 8 8 (fun t : Fin (8 * 8) => g (t.val / 8) (t.val % 8) (by have := t.isLt; omega) (Nat.mod_lt _ (by decide)))]
  refine Finset.sum_congr rfl fun i _ => Finset.sum_congr rfl fun j _ => ?_
  have h1 : (finProdFinEquiv (i, j)).val / 8 = i.val := by
    show (j.val + 8 * i.val) / 8 = i.val
    have := j.isLt; omega
  have h2 : (finProdFinEquiv (i, j)).val % 8 = j.val := by
    show (j.val + 8 * i.val) % 8 = j.val
    have := j.isLt; omega
  simp only [h1, h2]

/-- The 64 tiles partition the pairs of rows. -/
theorem sum_tiles {M : Type*} [AddCommMonoid M] (f : Fin 8192 → Fin 8192 → M) :
    ∑ t : Fin 64, ∑ a : Fin 1024, ∑ b : Fin 1024,
        f (rowOf (t.val / 8) (by have := t.isLt; omega) a) (rowOf (t.val % 8) (Nat.mod_lt _ (by decide)) b)
      = ∑ p : Fin 8192, ∑ q : Fin 8192, f p q := by
  rw [sum_points (fun i j hi hj => ∑ a : Fin 1024, ∑ b : Fin 1024, f (rowOf i hi a) (rowOf j hj b))]
  rw [sum_rows]
  refine Finset.sum_congr rfl fun i _ => ?_
  rw [Finset.sum_comm]
  refine Finset.sum_congr rfl fun a _ => ?_
  rw [sum_rows]

end Cert.KernelIdeal.Hand
-- ==== Proof.Spec.lean ====
/- The loss both programs compute, as one function of the embedding matrix and the label vector over the
   extended reals: the similarity of two rows is their inner product; a pair with equal labels and similarity
   below one contributes one minus the similarity, a pair with different labels and similarity above one half
   contributes the similarity; the two contributions are summed over all pairs of rows separately, added, and
   divided by the number of rows. -/
import Idealize.ShloMosaic.PureOps.Ideal
import Idealize.ShloMosaic.Lib.ValueIdx
import Mathlib.Algebra.BigOperators.Group.Finset.Basic

noncomputable section

namespace Cert.Spec

open Idealize.ShloMosaic

/-- The literals of the two programs, each the extended real its binary word denotes. -/
abbrev one : EReal := Ideal.ofBits .f32 0x3F800000#32
abbrev half : EReal := Ideal.ofBits .f32 0x3F000000#32
abbrev zero : EReal := Ideal.ofBits .f32 0x00000000#32
abbrev rows : EReal := Ideal.ofBits .f32 0x46000000#32

/-- The inner product of rows `p` and `q` of the embedding matrix. -/
def sim (E : Fin 8192 → Fin 512 → EReal) (p q : Fin 8192) : EReal := ∑ k : Fin 512, E p k * E q k

/-- Whether rows `p` and `q` carry the same label. -/
def same (L : Fin 8192 → BitVec 32) (p q : Fin 8192) : BitVec 1 := IntOp.cmpi .eq (L p) (L q)

/-- What a pair with equal labels contributes: one minus the similarity when that is below one. -/
def posTerm (E : Fin 8192 → Fin 512 → EReal) (L : Fin 8192 → BitVec 32) (p q : Fin 8192) : EReal :=
  Scalar.select (IntOp.andi (same L p q) (Ideal.cmp .olt (sim E p q) one)) (one - sim E p q) zero

/-- What a pair with different labels contributes: the similarity when that is above one half. -/
def negTerm (E : Fin 8192 → Fin 512 → EReal) (L : Fin 8192 → BitVec 32) (p q : Fin 8192) : EReal :=
  Scalar.select (IntOp.andi (IntOp.xori (same L p q) 1#1) (Ideal.cmp .ogt (sim E p q) half)) (sim E p q) zero

/-- The sum of the equal-label contributions over all pairs of rows. -/
def posSum (E : Fin 8192 → Fin 512 → EReal) (L : Fin 8192 → BitVec 32) : EReal := ∑ p : Fin 8192, ∑ q : Fin 8192, posTerm E L p q
/-- The sum of the different-label contributions over all pairs of rows. -/
def negSum (E : Fin 8192 → Fin 512 → EReal) (L : Fin 8192 → BitVec 32) : EReal := ∑ p : Fin 8192, ∑ q : Fin 8192, negTerm E L p q

/-- The loss. -/
def loss (E : Fin 8192 → Fin 512 → EReal) (L : Fin 8192 → BitVec 32) : EReal := Ideal.div (posSum E L + negSum E L) rows

/-- The embedding matrix and the label vector of a memory, by row and column. -/
def Eof (x : (⟨2, ![8192, 512]⟩ : Shape).Idx → EReal) : Fin 8192 → Fin 512 → EReal := fun p k => x (ValueIdx.ix2 p k)
def Lof (x : (⟨1, ![8192]⟩ : Shape).Idx → BitVec 32) : Fin 8192 → BitVec 32 := fun p => x (ValueIdx.ix1 p)

end Cert.Spec

end
-- ==== Proof.KI.TileRows.lean ====
/- The four blocks a grid point loads are rows of the arguments: at grid point t = (t / 8, t % 8) the first embedding
   block is rows (t / 8)·1024 … of the embedding matrix and the second is rows (t % 8)·1024 … of the same matrix; the
   column block of labels is the labels of the first range of rows and the row block of labels those of the second. -/
import proofs.«174601_j55817394979140_1_alg».proof.Proof.KI.TileSum
import proofs.«174601_j55817394979140_1_alg».proof.Proof.KI.Regroup
import proofs.«174601_j55817394979140_1_alg».proof.Proof.Spec
import Idealize.ShloMosaic.Lib.ValueIdx
import Idealize.ShloMosaic.Lib.ValueLayout
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable (mI : (ℓ : Loc nD τ sig) → Buf (Elt Ideal) ℓ)

/-- A grid point's number is below 64. -/
theorem tlt (t : Fin cfg0.N) : t.val < 64 := t.isLt

/-- The block indices of the four input windows at grid point t = (t / 8, t % 8): the first embedding window and the
    column of labels move with the first coordinate, the second embedding window and the row of labels with the second. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8 :=
  (by decide +kernel : ∀ t : Fin grid0.N, _)

/-- The embedding array the windows read is the argument, cast. -/
theorem V_v0 (c : Dev nD) : @Eq (FVec Ideal S8192x512 .bf16) (V mI c main_v0) (truncf .bf16 (mI ((c.tc : Thread nD τ).loc main_arg0) : FVec Ideal S8192x512 .f32) bitsLt_bf16_f32) := by
  dsimp only [V, V0]
  simp only [Gen.hostOps0, List.flatten_cons, List.flatten_nil, List.append_nil]
  after_results <;> rfl

/-- The column of labels is the label vector, reshaped. -/
theorem V_v1 (c : Dev nD) : @Eq (IVec S8192x1 32) (V mI c main_v1) (shapeCast S8192x1 (mI ((c.tc : Thread nD τ).loc main_arg1) : IVec S8192 32) shapeCasts_S8192_S8192x1) := by
  dsimp only [V, V0]
  simp only [Gen.hostOps0, List.flatten_cons, List.flatten_nil, List.append_nil]
  after_results <;> rfl

/-- The row of labels is the label vector, reshaped. -/
theorem V_v2 (c : Dev nD) : @Eq (IVec S1x8192 32) (V mI c main_v2) (shapeCast S1x8192 (mI ((c.tc : Thread nD τ).loc main_arg1) : IVec S8192 32) shapeCasts_S8192_S1x8192) := by
  dsimp only [V, V0]
  simp only [Gen.hostOps0, List.flatten_cons, List.flatten_nil, List.append_nil]
  after_results <;> rfl

/-- Row a of the first embedding block at grid point t is row (t / 8)·1024 + a of the embedding matrix. -/
theorem blk0_apply (c : Dev nD) (t : Fin cfg0.N) (a : Fin 1024) (k : Fin 512) :
    (iblk mI c 0 t : S1024x512.Idx → EReal) (ix2 a k)
      = Cert.Spec.Eof (mI ((c.tc : Thread nD τ).loc main_arg0)) (rowOf (t.val / 8) (by have := tlt t; omega) a) k := by
  show (V mI c main_v0 : S8192x512.Idx → EReal) (((cfg0.win 0).blk t).view.emb (ix2 a k)) = _
  rw [V_v0]
  obtain ⟨e0, e1, -⟩ := idx_facts t
  show (mI ((c.tc : Thread nD τ).loc main_arg0) : S8192x512.Idx → EReal) _ = (mI ((c.tc : Thread nD τ).loc main_arg0) : S8192x512.Idx → EReal) (ix2 (rowOf (t.val / 8) (by have := tlt t; omega) a) k)
  refine congrArg _ (funext fun ax => Fin.ext ?_)
  match ax with
  | ⟨0, _⟩ => show win0_0.index t (0 : Fin 2) * 1024 + 1 * a.val = t.val / 8 * 1024 + a.val; rw [e0]; omega
  | ⟨1, _⟩ => show win0_0.index t (1 : Fin 2) * 512 + 1 * k.val = k.val; rw [e1]; omega

/-- Row b of the second embedding block at grid point t is row (t % 8)·1024 + b of the embedding matrix. -/
theorem blk1_apply (c : Dev nD) (t : Fin cfg0.N) (b : Fin 1024) (k : Fin 512) :
    (iblk mI c 1 t : S1024x512.Idx → EReal) (ix2 b k)
      = Cert.Spec.Eof (mI ((c.tc : Thread nD τ).loc main_arg0)) (rowOf (t.val % 8) (Nat.mod_lt _ (by decide)) b) k := by
  show (V mI c main_v0 : S8192x512.Idx → EReal) (((cfg0.win 1).blk t).view.emb (ix2 b k)) = _
  rw [V_v0]
  obtain ⟨-, -, e0, e1, -⟩ := idx_facts t
  show (mI ((c.tc : Thread nD τ).loc main_arg0) : S8192x512.Idx → EReal) _ = (mI ((c.tc : Thread nD τ).loc main_arg0) : S8192x512.Idx → EReal) (ix2 (rowOf (t.val % 8) (Nat.mod_lt _ (by decide)) b) k)
  refine congrArg _ (funext fun ax => Fin.ext ?_)
  match ax with
  | ⟨0, _⟩ => show win0_1.index t (0 : Fin 2) * 1024 + 1 * b.val = t.val % 8 * 1024 + b.val; rw [e0]; omega
  | ⟨1, _⟩ => show win0_1.index t (1 : Fin 2) * 512 + 1 * k.val = k.val; rw [e1]; omega

/-- Entry a of the first label block at grid point t is the label of row (t / 8)·1024 + a. -/
theorem blk2_apply (c : Dev nD) (t : Fin cfg0.N) (a : Fin 1024) :
    (iblk mI c 2 t : S1024x1.Idx → BitVec 32) (ix2 a (0 : Fin 1))
      = Cert.Spec.Lof (mI ((c.tc : Thread nD τ).loc main_arg1)) (rowOf (t.val / 8) (by have := tlt t; omega) a) := by
  show (V mI c main_v1 : S8192x1.Idx → BitVec 32) (((cfg0.win 2).blk t).view.emb (ix2 a (0 : Fin 1))) = _
  rw [V_v1]
  obtain ⟨-, -, -, -, e0, e1, -⟩ := idx_facts t
  refine shapeCast_apply _ _ _ (ix1 (rowOf (t.val / 8) (by have := tlt t; omega) a)) ?_
  rw [Shape.rowMajor_val_one, Shape.rowMajor_val_two]
  show t.val / 8 * 1024 + a.val = (win0_2.index t (0 : Fin 2) * 1024 + 1 * a.val) * 1 + (win0_2.index t (1 : Fin 2) * 1 + 1 * 0)
  rw [e0, e1]; omega

/-- Entry b of the second label block at grid point t is the label of row (t % 8)·1024 + b. -/
theorem blk3_apply (c : Dev nD) (t : Fin cfg0.N) (b : Fin 1024) :
    (iblk mI c 3 t : S1x1024.Idx → BitVec 32) (ix2 (0 : Fin 1) b)
      = Cert.Spec.Lof (mI ((c.tc : Thread nD τ).loc main_arg1)) (rowOf (t.val % 8) (Nat.mod_lt _ (by decide)) b) := by
  show (V mI c main_v2 : S1x8192.Idx → BitVec 32) (((cfg0.win 3).blk t).view.emb (ix2 (0 : Fin 1) b)) = _
  rw [V_v2]
  obtain ⟨-, -, -, -, -, -, e0, e1⟩ := idx_facts t
  refine shapeCast_apply _ _ _ (ix1 (rowOf (t.val % 8) (Nat.mod_lt _ (by decide)) b)) ?_
  rw [Shape.rowMajor_val_one, Shape.rowMajor_val_two]
  show t.val % 8 * 1024 + b.val = (win0_3.index t (0 : Fin 2) * 1 + 1 * 0) * 8192 + (win0_3.index t (1 : Fin 2) * 1024 + 1 * b.val)
  rw [e0, e1]; omega

end Cert.KernelIdeal.Hand

end
-- ==== Proof.KI.Tiles.lean ====
/- The 64 per-point contributions add up to the two sums of the specification: a tile's equal-label sum is the
   specification's term summed over the tile's 1024×1024 pairs of rows (the tile at grid point (i, j) pairs rows
   i·1024 + a with rows j·1024 + b), likewise the different-label sum, and the 64 tiles partition all pairs. -/
import proofs.«174601_j55817394979140_1_alg».proof.Proof.KI.TileSum
import proofs.«174601_j55817394979140_1_alg».proof.Proof.KI.TileVal
import proofs.«174601_j55817394979140_1_alg».proof.Proof.KI.TileRows
import proofs.«174601_j55817394979140_1_alg».proof.Proof.KI.Regroup
import proofs.«174601_j55817394979140_1_alg».proof.Proof.Spec
import Idealize.ShloMosaic.Lib.ValueIdx
import Idealize.ShloMosaic.Lib.ValueLayout
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (mI : (ℓ : Loc nD τ sig) → Buf (Elt Ideal) ℓ)

/-- One tile's contribution is the specification's two terms summed over the tile's pairs of rows. -/
theorem tile_eq (c : Dev nD) (t : Fin cfg0.N) :
    tileSum mI c t
      = ∑ a : Fin 1024, ∑ b : Fin 1024,
          (Cert.Spec.posTerm (Cert.Spec.Eof (mI ((c.tc : Thread nD τ).loc main_arg0))) (Cert.Spec.Lof (mI ((c.tc : Thread nD τ).loc main_arg1)))
              (rowOf (t.val / 8) (by have := tlt t; omega) a) (rowOf (t.val % 8) (Nat.mod_lt _ (by decide)) b)
            + Cert.Spec.negTerm (Cert.Spec.Eof (mI ((c.tc : Thread nD τ).loc main_arg0))) (Cert.Spec.Lof (mI ((c.tc : Thread nD τ).loc main_arg1)))
              (rowOf (t.val / 8) (by have := tlt t; omega) a) (rowOf (t.val % 8) (Nat.mod_lt _ (by decide)) b)) := by
  unfold tileSum
  refine (congrArg₂ (· + ·) (pay5_eq _ _ _ _) (pay6_eq _ _ _ _ _)).trans ?_
  rw [← Finset.sum_add_distrib]
  refine Finset.sum_congr rfl fun a _ => ?_
  rw [← Finset.sum_add_distrib]
  refine Finset.sum_congr rfl fun b _ => ?_
  have hs : tsim (iblk mI c 0 t) (iblk mI c 1 t) a b
      = Cert.Spec.sim (Cert.Spec.Eof (mI ((c.tc : Thread nD τ).loc main_arg0)))
          (rowOf (t.val / 8) (by have := tlt t; omega) a) (rowOf (t.val % 8) (Nat.mod_lt _ (by decide)) b) := by
    unfold tsim Cert.Spec.sim
    exact Finset.sum_congr rfl fun k _ => congrArg₂ (· * ·) (blk0_apply mI c t a k) (blk1_apply mI c t b k)
  have h2 := blk2_apply mI c t a
  have h3 := blk3_apply mI c t b
  rw [hs, h2, h3]
  rfl

theorem tiles_sum (c : Dev nD) :
    ∑ t : Fin cfg0.N, tileSum mI c t
      = Cert.Spec.posSum (Cert.Spec.Eof (mI ((c.tc : Thread nD τ).loc main_arg0))) (Cert.Spec.Lof (mI ((c.tc : Thread nD τ).loc main_arg1)))
        + Cert.Spec.negSum (Cert.Spec.Eof (mI ((c.tc : Thread nD τ).loc main_arg0))) (Cert.Spec.Lof (mI ((c.tc : Thread nD τ).loc main_arg1))) := by
  refine (Finset.sum_congr rfl fun t _ => tile_eq mI c t).trans ?_
  refine (sum_tiles (fun p q =>
      Cert.Spec.posTerm (Cert.Spec.Eof (mI ((c.tc : Thread nD τ).loc main_arg0))) (Cert.Spec.Lof (mI ((c.tc : Thread nD τ).loc main_arg1))) p q
        + Cert.Spec.negTerm (Cert.Spec.Eof (mI ((c.tc : Thread nD τ).loc main_arg0))) (Cert.Spec.Lof (mI ((c.tc : Thread nD τ).loc main_arg1))) p q)).trans ?_
  unfold Cert.Spec.posSum Cert.Spec.negSum
  simp only [Finset.sum_add_distrib]

end Cert.KernelIdeal.Hand

end
-- ==== Proof.RefValue.lean ====
/- The reference program's result is the loss: its one 8192×8192 similarity matrix, its two masks and its two
   sums over all pairs of rows are the specification's, read index by index. -/
import proofs.«174601_j55817394979140_1_alg».proof.Proof.Gen.ReferenceIdeal.Read
import proofs.«174601_j55817394979140_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.RefValue

open Idealize.ShloMosaic Idealize.ShloMosaic.ValueIdx Cert.ReferenceIdeal

/-! ## Where each entry of the pair matrix reads its operands -/

/-- Entry (p, q) of the product reads the left factor at row p, column k. -/
theorem lidx_at (p q : Fin 8192) (k : Fin 512) : Read.lidx_main_v1 (ix2 p q) k = ix2 p k :=
  funext fun a => Fin.ext (by match a with | ⟨0, _⟩ => rfl | ⟨1, _⟩ => rfl)

/-- Entry (p, q) of the product reads the transposed right factor at row k, column q, which is the matrix
    itself at row q, column k. -/
theorem ridx_at (p q : Fin 8192) (k : Fin 512) : Read.idx_main_v0 (Read.ridx_main_v1 (ix2 p q) k) = ix2 q k :=
  funext fun a => Fin.ext (by match a with | ⟨0, _⟩ => rfl | ⟨1, _⟩ => rfl)

/-- The labels spread along the rows read the label of row p at entry (p, q). -/
theorem rowLabel_at (p q : Fin 8192) : Read.idx_main_v2 (Read.idx_main_v4 (ix2 p q)) = ix1 p :=
  funext fun a => Fin.ext (by match a with | ⟨0, _⟩ => rfl)

/-- The labels spread along the columns read the label of row q at entry (p, q). -/
theorem colLabel_at (p q : Fin 8192) : Read.idx_main_v3 (Read.idx_main_v5 (ix2 p q)) = ix1 q :=
  funext fun a => Fin.ext (by match a with | ⟨0, _⟩ => rfl)

/-! ## The entries of the pair matrices -/

/-- Entry (p, q) of the product of the matrix with its transpose is the inner product of rows p and q. -/
theorem sim_at (x0 : (⟨S8192x512, .f32⟩ : BufTy).Contents (Elt Ideal)) (p q : Fin 8192) :
    Read.val_main_v1 (F := Ideal) x0 (ix2 p q) = Cert.Spec.sim (Cert.Spec.Eof x0) p q := by
  rw [Read.val_main_v1_apply]
  unfold Cert.Spec.sim Cert.Spec.Eof
  refine Finset.sum_congr rfl fun k _ => ?_
  rw [Read.val_main_v0_apply, lidx_at, ridx_at]

/-- Entry (p, q) of the label comparison says whether rows p and q carry the same label. -/
theorem same_at (x1 : (⟨S8192, .i32⟩ : BufTy).Contents (Elt Ideal)) (p q : Fin 8192) :
    Read.val_main_v6 (F := Ideal) x1 (ix2 p q) = Cert.Spec.same (Cert.Spec.Lof x1) p q := by
  rw [Read.val_main_v6_apply, Read.val_main_v4_apply, Read.val_main_v5_apply, Read.val_main_v2_apply,
    Read.val_main_v3_apply, rowLabel_at, colLabel_at]
  rfl

/-- The threshold of the equal-label mask is one everywhere. -/
theorem one_at (i : S8192x8192.Idx) : Read.val_main_v7 (F := Ideal) i = Cert.Spec.one := by
  rw [Read.val_main_v7_apply, Read.val_main_cst_apply]
  rfl

/-- The minuend of the equal-label contribution is one everywhere. -/
theorem one_at' (i : S8192x8192.Idx) : Read.val_main_v14 (F := Ideal) i = Cert.Spec.one := by
  rw [Read.val_main_v14_apply, Read.val_main_cst_1_apply]
  rfl

/-- The threshold of the different-label mask is one half everywhere. -/
theorem half_at (i : S8192x8192.Idx) : Read.val_main_v11 (F := Ideal) i = Cert.Spec.half := by
  rw [Read.val_main_v11_apply, Read.val_main_cst_0_apply]
  rfl

/-- A pair outside the equal-label mask contributes zero. -/
theorem zero_at (i : S8192x8192.Idx) : Read.val_main_call0_v1 (F := Ideal) i = Cert.Spec.zero := by
  rw [Read.val_main_call0_v1_apply, Read.val_main_call0_v0_apply, Read.val_main_cst_2_apply]
  rfl

/-- A pair outside the different-label mask contributes zero. -/
theorem zero_at' (i : S8192x8192.Idx) : Read.val_main_call1_v1 (F := Ideal) i = Cert.Spec.zero := by
  rw [Read.val_main_call1_v1_apply, Read.val_main_call1_v0_apply, Read.val_main_cst_4_apply]
  rfl

/-- Entry (p, q) of the equal-label contributions. -/
theorem pos_at (x0 : (⟨S8192x512, .f32⟩ : BufTy).Contents (Elt Ideal)) (x1 : (⟨S8192, .i32⟩ : BufTy).Contents (Elt Ideal))
    (p q : Fin 8192) :
    Read.val_main_v16 (F := Ideal) x0 x1 (ix2 p q) = Cert.Spec.posTerm (Cert.Spec.Eof x0) (Cert.Spec.Lof x1) p q := by
  rw [Read.val_main_v16_apply, Read.val_main_v9_apply, Read.val_main_v8_apply, Read.val_main_v15_apply, same_at, sim_at,
    one_at, one_at', zero_at]
  rfl

/-- On one bit, the complement is the exclusive or with one. -/
theorem not_eq_xor_one : ∀ b : BitVec 1, ~~~b = IntOp.xori b 1#1 := by decide

/-- Entry (p, q) of the different-label contributions. -/
theorem neg_at (x0 : (⟨S8192x512, .f32⟩ : BufTy).Contents (Elt Ideal)) (x1 : (⟨S8192, .i32⟩ : BufTy).Contents (Elt Ideal))
    (p q : Fin 8192) :
    Read.val_main_v18 (F := Ideal) x0 x1 (ix2 p q) = Cert.Spec.negTerm (Cert.Spec.Eof x0) (Cert.Spec.Lof x1) p q := by
  rw [Read.val_main_v18_apply, Read.val_main_v13_apply, Read.val_main_v10_apply, Read.val_main_v12_apply, same_at, sim_at,
    half_at, zero_at', not_eq_xor_one]
  rfl

/-! ## The two sums over all pairs, and the loss -/

/-- The sum of the equal-label contributions over the whole pair matrix. -/
theorem posSum_at (x0 : (⟨S8192x512, .f32⟩ : BufTy).Contents (Elt Ideal)) (x1 : (⟨S8192, .i32⟩ : BufTy).Contents (Elt Ideal))
    (i : S_.Idx) :
    Read.val_main_v17 (F := Ideal) x0 x1 i = Cert.Spec.posSum (Cert.Spec.Eof x0) (Cert.Spec.Lof x1) := by
  rw [Read.val_main_v17_apply, Read.val_main_cst_3_apply, Ideal.ofBits_def, Ideal.ofBits_zero_f32, zero_add, sum_idx2]
  unfold Cert.Spec.posSum
  exact Finset.sum_congr rfl fun p _ => Finset.sum_congr rfl fun q _ => pos_at x0 x1 p q

/-- The sum of the different-label contributions over the whole pair matrix. -/
theorem negSum_at (x0 : (⟨S8192x512, .f32⟩ : BufTy).Contents (Elt Ideal)) (x1 : (⟨S8192, .i32⟩ : BufTy).Contents (Elt Ideal))
    (i : S_.Idx) :
    Read.val_main_v19 (F := Ideal) x0 x1 i = Cert.Spec.negSum (Cert.Spec.Eof x0) (Cert.Spec.Lof x1) := by
  rw [Read.val_main_v19_apply, Read.val_main_cst_5_apply, Ideal.ofBits_def, Ideal.ofBits_zero_f32, zero_add, sum_idx2]
  unfold Cert.Spec.negSum
  exact Finset.sum_congr rfl fun p _ => Finset.sum_congr rfl fun q _ => neg_at x0 x1 p q

/-- The reference's scalar result is the loss of its two arguments. -/
theorem ref_loss (x0 : (⟨S8192x512, .f32⟩ : BufTy).Contents (Elt Ideal)) (x1 : (⟨S8192, .i32⟩ : BufTy).Contents (Elt Ideal)) :
    Cert.ReferenceIdeal.Read.val_main_v21 (F := Ideal) x0 x1 = fun _ => Cert.Spec.loss (Cert.Spec.Eof x0) (Cert.Spec.Lof x1) := by
  funext i
  rw [Read.val_main_v21_apply, Read.val_main_v20_apply, Read.val_main_cst_6_apply, posSum_at, negSum_at]
  rfl

end Cert.RefValue

end
-- ==== Proof.lean ====
/- The certificate of the contrastive-loss kernel against its reference.
   Both programs compute one number from the embedding matrix E (8192 rows) and the label vector: with
   sim(p, q) the inner product of rows p and q, the sum over all pairs (p, q) of 1 − sim(p, q) where the labels
   agree and sim < 1, plus the sum over all pairs of sim(p, q) where the labels differ and sim > ½, divided by 8192.
   The reference forms the whole 8192 × 8192 similarity matrix and sums it twice. The kernel walks an 8 × 8 grid of
   1024 × 1024 tiles, adds each tile's two sums into a one-cell accumulator that it clears at the first tile and
   copies out at the last, and the host divides. Over the extended reals the cast of E to a narrower float format
   is the identity, the matrix unit's product into a zero accumulator is the inner product, and addition is
   commutative and associative with neutral element zero, so the 64 tile sums regroup into the two sums over all
   pairs: no finiteness of the inputs is used. The frames: the reference is straight-line host code; the kernel's
   pipeline runs point by point with the accumulator's running value as its invariant, the two windows on the
   embedding array each holding half of it. -/
import proofs.«174601_j55817394979140_1_alg».proof.Defs
import proofs.«174601_j55817394979140_1_alg».proof.Proof.Gen.Kernel
import proofs.«174601_j55817394979140_1_alg».proof.Proof.Gen.KernelIdeal
import proofs.«174601_j55817394979140_1_alg».proof.Proof.Gen.ReferenceIdeal
import proofs.«174601_j55817394979140_1_alg».proof.Proof.Gen.Pre_finite_inputs
import proofs.«174601_j55817394979140_1_alg».proof.Proof.Gen.ReferenceIdeal.Run
import proofs.«174601_j55817394979140_1_alg».proof.Proof.Gen.ReferenceIdeal.Read
import proofs.«174601_j55817394979140_1_alg».proof.Proof.K.Launch
import proofs.«174601_j55817394979140_1_alg».proof.Proof.KI.Launch
import proofs.«174601_j55817394979140_1_alg».proof.Proof.KI.Out
import proofs.«174601_j55817394979140_1_alg».proof.Proof.KI.Tiles
import proofs.«174601_j55817394979140_1_alg».proof.Proof.RefValue
import Idealize.ShloMosaic.Adequacy
import Idealize.ShloMosaic.Init

noncomputable section

namespace Cert.Proof

open Idealize.ShloMosaic Idealize.SL.Sem

/-- The idealized kernel's first result is the loss of its two arguments. -/
theorem kernel_loss (m : (ℓ : Loc Cert.KernelIdeal.nD Cert.KernelIdeal.τ Cert.KernelIdeal.sig) → Buf (Elt Ideal) ℓ) (c : Dev Cert.KernelIdeal.nD) :
    Cert.KernelIdeal.Hand.Wfin (F := Ideal) m c (Proc.devRef .tc Cert.KernelIdeal.main_v5)
      = fun _ => Cert.Spec.loss (Cert.Spec.Eof (m ((c.tc : Thread Cert.KernelIdeal.nD Cert.KernelIdeal.τ).loc Cert.KernelIdeal.main_arg0)))
          (Cert.Spec.Lof (m ((c.tc : Thread Cert.KernelIdeal.nD Cert.KernelIdeal.τ).loc Cert.KernelIdeal.main_arg1))) := by
  rw [Cert.KernelIdeal.Hand.Wfin_v5, Cert.KernelIdeal.Hand.tiles_sum]
  rfl

theorem claim : Cert.Claim := ⟨Cert.Kernel.Gen.facts, Cert.KernelIdeal.Gen.facts, Cert.ReferenceIdeal.Gen.facts, Cert.Pre_finite_inputs.Gen.facts,
  fun m ρ _ => (θ_run _ _ _).mono (fun _ h c => ⟨(h c).1, (h c).2.1⟩) (Cert.Kernel.Hand.run_main (F := Bits) m ρ),
  fun m ρ _ => (θ_run _ _ _).mono (fun _ h c => ⟨(h c).1, (h c).2.1⟩) (Cert.KernelIdeal.Hand.run_main (F := Ideal) m ρ),
  fun m ρ _ => (θ_run Cert.ReferenceIdeal.defs _ _).mono (fun _ h c => (h c).2.2.2) (Cert.ReferenceIdeal.Value.run (F := Ideal) m ρ),
  trivial,
  fun m ρ m' ρ' _ hagree =>
    ⟨fun c => fun _ => Cert.Spec.loss (Cert.Spec.Eof (m ((c.tc : Thread Cert.KernelIdeal.nD Cert.KernelIdeal.τ).loc Cert.KernelIdeal.main_arg0)))
        (Cert.Spec.Lof (m ((c.tc : Thread Cert.KernelIdeal.nD Cert.KernelIdeal.τ).loc Cert.KernelIdeal.main_arg1))),
     fun _ => constantI Cert.KernelIdeal.S_ 32 0#32,
     fun _ => constantI Cert.KernelIdeal.S_ 32 0#32,
     (θ_run _ _ _).mono (fun _ h c => ⟨(h c).2.2.1.trans (kernel_loss m c), (h c).2.2.2.1.trans (Cert.KernelIdeal.Hand.Wfin_c m c),
        (h c).2.2.2.2.trans (Cert.KernelIdeal.Hand.Wfin_c_0 m c), (h c).1, (h c).2.1⟩) (Cert.KernelIdeal.Hand.run_main (F := Ideal) m ρ),
     (θ_run Cert.ReferenceIdeal.defs _ _).mono (fun _ h c => ⟨by
          rw [(h c).1, Cert.ReferenceIdeal.Read.val_main_v21_eq, Cert.RefValue.ref_loss, (hagree c).1, (hagree c).2]
          rfl,
        (h c).2.1, (h c).2.2.1, (h c).2.2.2.1, (h c).2.2.2.2⟩) (Cert.ReferenceIdeal.Value.run (F := Ideal) m' ρ')⟩⟩

end Cert.Proof

end
